-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x8192 : Shape := ⟨2, ![16384, 8192]⟩
abbrev S8192 : Shape := ⟨1, ![8192]⟩
abbrev S64x64 : Shape := ⟨2, ![64, 64]⟩
abbrev S64 : Shape := ⟨1, ![64]⟩
abbrev S_ : Shape := ⟨0, ![]⟩
abbrev S16384 : Shape := ⟨1, ![16384]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x8192 : S_.BroadcastsInDim S16384x8192 (![] : Fin 0 → Fin S16384x8192.rank)
  reducesTo_S16384x8192_S_d0_1 : S16384x8192.ReducesTo [0, 1] S_
  bcast_S_S8192 : S_.BroadcastsInDim S8192 (![] : Fin 0 → Fin S8192.rank)
  reducesTo_S8192_S_d0 : S8192.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  reducesTo_S16384x8192_S16384_d1 : S16384x8192.ReducesTo [1] S16384
  bcast_S_S16384 : S_.BroadcastsInDim S16384 (![] : Fin 0 → Fin S16384.rank)
  reducesTo_S16384_S_d0 : S16384.ReducesTo [0] S_
  reducesTo_S16384x8192_S8192_d0 : S16384x8192.ReducesTo [0] S8192

variable [Facts]

def fn_part2 {F : FTy → Type} [FloatOps F] (main_v28 : IVec S_ 1) (main_v31 : IVec S8192 1) (main_c_13 : IVec S_ 1) : IVec S_ 1 :=
  let main_v32 : IVec S_ 1 := (fun x v => Host.reduce IntOp.andi x v reducesTo_S8192_S_d0 h_S_) main_v31 main_c_13
  let main_v33 : IVec S_ 1 := andi main_v28 main_v32
  main_v33

def fn_part1 {F : FTy → Type} [FloatOps F] (main_arg1 : FVec F S16384x8192 .f32) (main_arg4 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_cst_8 : FVec F S_ .f32 := constant S_ .f32 0x00000000#32
  let main_v24 : FVec F S16384 .f32 := (fun x v => Host.reduceAdd x v reducesTo_S16384x8192_S16384_d1 h_S_) main_arg1 main_cst_8
  let main_cst_9 : FVec F S_ .f32 := constant S_ .f32 0x00000000#32
  let main_v25 : FVec F S16384 .f32 := broadcastInDim S16384 ![] bcast_S_S16384 main_cst_9
  let main_v26 : IVec S16384 1 := cmpf .ogt main_v24 main_v25
  let main_c_10 : IVec S_ 1 := constantI S_ 1 1#1
  let main_v27 : IVec S_ 1 := (fun x v => Host.reduce IntOp.andi x v reducesTo_S16384_S_d0 h_S_) main_v26 main_c_10
  let main_v28 : IVec S_ 1 := andi main_v23 main_v27
  let main_cst_11 : FVec F S_ .f32 := constant S_ .f32 0x00000000#32
  let main_v29 : FVec F S8192 .f32 := (fun x v => Host.reduceAdd x v reducesTo_S16384x8192_S8192_d0 h_S_) main_arg1 main_cst_11
  let main_cst_12 : FVec F S_ .f32 := constant S_ .f32 0x00000000#32
  let main_v30 : FVec F S8192 .f32 := broadcastInDim S8192 ![] bcast_S_S8192 main_cst_12
  let main_v31 : IVec S8192 1 := cmpf .une main_v29 main_v30
  let main_c_13 : IVec S_ 1 := constantI S_ 1 1#1
  fn_part2 (F := F) main_v28 main_v31 main_c_13

def fn {F : FTy → Type} [FloatOps F] (main_arg0 : FVec F S16384x64 .f32) (main_arg1 : FVec F S16384x8192 .f32) (main_arg2 : FVec F S8192 .f32) (main_arg3 : FVec F S64x64 .f32) (main_arg4 : FVec F S64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x8192 .f32 := Host.absf main_arg1
  let main_cst_0 : FVec F S_ .f32 := constant S_ .f32 0x7F800000#32
  let main_v5 : FVec F S16384x8192 .f32 := broadcastInDim S16384x8192 ![] bcast_S_S16384x8192 main_cst_0
  let main_v6 : IVec S16384x8192 1 := cmpf .olt main_v4 main_v5
  let main_c_1 : IVec S_ 1 := constantI S_ 1 1#1
  let main_v7 : IVec S_ 1 := (fun x v => Host.reduce IntOp.andi x v reducesTo_S16384x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg4 main_v13 main_v16
-- ==== Kernel.lean ====
abbrev S16384x64 : Shape := ⟨2, ![16384, 64]⟩
abbrev S16384x8192 : Shape := ⟨2, ![16384, 8192]⟩
abbrev S8192 : Shape := ⟨1, ![8192]⟩
abbrev S64x64 : Shape := ⟨2, ![64, 64]⟩
abbrev S64 : Shape := ⟨1, ![64]⟩
abbrev S16384x1 : Shape := ⟨2, ![16384, 1]⟩
abbrev S2x1x8192 : Shape := ⟨3, ![2, 1, 8192]⟩
abbrev S2x64x8192 : Shape := ⟨3, ![2, 64, 8192]⟩
abbrev S256x8192 : Shape := ⟨2, ![256, 8192]⟩
abbrev S256x64 : Shape := ⟨2, ![256, 64]⟩
abbrev S256x1 : Shape := ⟨2, ![256, 1]⟩
abbrev S1x1x8192 : Shape := ⟨3, ![1, 1, 8192]⟩
abbrev S1x64x8192 : Shape := ⟨3, ![1, 64, 8192]⟩
abbrev S256 : Shape := ⟨1, ![256]⟩
abbrev S1x8192 : Shape := ⟨2, ![1, 8192]⟩
abbrev S64x8192 : Shape := ⟨2, ![64, 8192]⟩
abbrev S_ : Shape := ⟨0, ![]⟩
abbrev S8192x64 : Shape := ⟨2, ![8192, 64]⟩
abbrev S1x64 : Shape := ⟨2, ![1, 64]⟩
abbrev S1024x2048 : Shape := ⟨2, ![1024, 2048]⟩
abbrev S2048x64 : Shape := ⟨2, ![2048, 64]⟩
abbrev S1024x1 : Shape := ⟨2, ![1024, 1]⟩
abbrev S1024x64 : Shape := ⟨2, ![1024, 64]⟩

abbrev nBuf : Space → Nat
  | .hbm => 23
  | .vmem => 18
  | .smem => 0
  | _ => 0

abbrev bufTy : (tb : Table) → Fin (tcTables nBuf tb) → BufTy
  | .hbm, ⟨0, _⟩ => ⟨S16384x64, .f32⟩
  | .hbm, ⟨1, _⟩ => ⟨S16384x8192, .f32⟩
  | .hbm, ⟨2, _⟩ => ⟨S8192, .f32⟩
  | .hbm, ⟨3, _⟩ => ⟨S64x64, .f32⟩
  | .hbm, ⟨4, _⟩ => ⟨S64, .f32⟩
  | .hbm, ⟨5, _⟩ => ⟨S16384x1, .f32⟩
  | .hbm, ⟨6, _⟩ => ⟨S2x1x8192, .f32⟩
  | .hbm, ⟨7, _⟩ => ⟨S2x64x8192, .f32⟩
  | .hbm, ⟨8, _⟩ => ⟨S_, .f32⟩
  | .hbm, ⟨9, _⟩ => ⟨S1x8192, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S64x8192, .f32⟩
  | .hbm, ⟨17, _⟩ => ⟨S1x8192, .f32⟩
  | .hbm, ⟨18, _⟩ => ⟨S64x8192, .f32⟩
  | .hbm, ⟨19, _⟩ => ⟨S64x8192, .f32⟩
  | .hbm, ⟨20, _⟩ => ⟨S8192x64, .f32⟩
  | .hbm, ⟨21, _⟩ => ⟨S1x64, .f32⟩
  | .hbm, ⟨22, _⟩ => ⟨S16384x64, .f32⟩
  | .local _ .vmem, ⟨0, _⟩ => ⟨S256x8192, .f32⟩
  | .local _ .vmem, ⟨1, _⟩ => ⟨S256x8192, .f32⟩
  | .local _ .vmem, ⟨2, _⟩ => ⟨S256x64, .f32⟩
  | .local _ .vmem, ⟨3, _⟩ => ⟨S256x64, .f32⟩
  | .local _ .vmem, ⟨4, _⟩ => ⟨S64x64, .f32⟩
  | .local _ .vmem, ⟨5, _⟩ => ⟨S256x1, .f32⟩
  | .local _ .vmem, ⟨6, _⟩ => ⟨S256x1, .f32⟩
  | .local _ .vmem, ⟨7, _⟩ => ⟨S1x1x8192, .f32⟩
  | .local _ .vmem, ⟨8, _⟩ => ⟨S1x64x8192, .f32⟩
  | .local _ .vmem, ⟨9, _⟩ => ⟨S1024x2048, .f32⟩
  | .local _ .vmem, ⟨10, _⟩ => ⟨S1024x2048, .f32⟩
  | .local _ .vmem, ⟨11, _⟩ => ⟨S2048x64, .f32⟩
  | .local _ .vmem, ⟨12, _⟩ => ⟨S2048x64, .f32⟩
  | .local _ .vmem, ⟨13, _⟩ => ⟨S1024x1, .f32⟩
  | .local _ .vmem, ⟨14, _⟩ => ⟨S1024x1, .f32⟩
  | .local _ .vmem, ⟨15, _⟩ => ⟨S1x64, .f32⟩
  | .local _ .vmem, ⟨16, _⟩ => ⟨S1024x64, .f32⟩
  | .local _ .vmem, ⟨17, _⟩ => ⟨S1024x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x64x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  reduces_S256x8192_S8192 : S256x8192.Reduces [0] S8192
  shapeCasts_S8192_S1x8192 : S8192.ShapeCasts S1x8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  inb_S1x64x8192_S1x64x8192_0_0_0 : ∀ a, (![0, 0, 0] : Fin 3 → Nat) a + S1x64x8192.size a ≤ S1x64x8192.size a
  h_S1x64x8192 : 0 < S1x64x8192.numel
  shapeCasts_S1x64x8192_S64x8192 : S1x64x8192.ShapeCasts S64x8192
  shapeCasts_S64x8192_S1x64x8192 : S64x8192.ShapeCasts S1x64x8192
  inb_S256x64_S256x64_0_0 : ∀ a, (![0, 0] : Fin 2 → Nat) a + S256x64.size a ≤ S256x64.size a
  h_S256x64 : 0 < S256x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  broadcasts_S256x1_S256x64 : S256x1.Broadcasts S256x64
  reducesTo_S2x1x8192_S1x8192_d0 : S2x1x8192.ReducesTo [0] S1x8192
  h_S_ : 0 < S_.numel
  shapeCasts_S1x8192_S8192 : S1x8192.ShapeCasts S8192
  bcast_S_S8192 : S_.BroadcastsInDim S8192 (![] : Fin 0 → Fin S8192.rank)
  reducesTo_S2x64x8192_S64x8192_d0 : S2x64x8192.ReducesTo [0] S64x8192
  bcast_S1x8192_S64x8192_0_1 : S1x8192.BroadcastsInDim S64x8192 (![0, 1] : Fin 2 → Fin S64x8192.rank)
  transposes_S64x8192_S8192x64_1_0 : S64x8192.Transposes [1, 0] S8192x64
  shapeCasts_S64_S1x64 : S64.ShapeCasts S1x64
  inb_S1024x64_S1024x64_0_0 : ∀ a, (![0, 0] : Fin 2 → Nat) a + S1024x64.size a ≤ S1024x64.size a
  h_S1024x64 : 0 < S1024x64.numel
  inb_S1024x2048_S1024x2048_0_0 : ∀ a, (![0, 0] : Fin 2 → Nat) a + S1024x2048.size a ≤ S1024x2048.size a
  h_S1024x2048 : 0 < S1024x2048.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  shapeCasts_S1024x64_S1024x64 : S1024x64.ShapeCasts S1024x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x64 : S1024x1.Broadcasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  dot_S256x64_S64x64_S256x64_1_0_0_1_n_n_wf : DotDims.WF S256x64 S64x64 S256x64 [1] [0] [0] [1] [] []
  dot_S256x64_S256x8192_S64x8192_0_0_1_1_n_n_wf : DotDims.WF S256x64 S256x8192 S64x8192 [0] [0] [1] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S16384x8192.size a
  hwx0_0 : ∀ i : grid0.Coords, EltTy.bits .f32 = 32 ∨ (Rect.block (s := S16384x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S16384x64.size a
  hwx0_1 : ∀ i : grid0.Coords, EltTy.bits .f32 = 32 ∨ (Rect.block (s := S16384x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S16384x1.size a
  hwx0_3 : ∀ i : grid0.Coords, EltTy.bits .f32 = 32 ∨ (Rect.block (s := S16384x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x8192.size a ≤ S2x1x8192.size a
  hwx0_4 : ∀ i : grid0.Coords, EltTy.bits .f32 = 32 ∨ (Rect.block (s := S2x1x8192) S1x1x8192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64x8192.size a ≤ S2x64x8192.size a
  hwx0_5 : ∀ i : grid0.Coords, EltTy.bits .f32 = 32 ∨ (Rect.block (s := S2x64x8192) S1x64x8192.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x8192.size a
  hwx1_0 : ∀ i : grid1.Coords, EltTy.bits .f32 = 32 ∨ (Rect.block (s := S16384x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S8192x64.size a
  hwx1_1 : ∀ i : grid1.Coords, EltTy.bits .f32 = 32 ∨ (Rect.block (s := S8192x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S16384x1.size a
  hwx1_2 : ∀ i : grid1.Coords, EltTy.bits .f32 = 32 ∨ (Rect.block (s := S16384x1) S1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x64.size a ≤ S16384x64.size a
  hwx1_4 : ∀ i : grid1.Coords, EltTy.bits .f32 = 32 ∨ (Rect.block (s := S16384x64) S1024x64.size (cc1_transform_4 i) (hinb1_4 i)).WholeWords (EltTy.packing .f32)

variable [Facts₀]

def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S256x8192_S64x8192_0_0_1_1_n_n : DotDims S256x64 S256x8192 S64x8192 where
  lhsContracting := [0]
  rhsContracting := [0]
  lhsNonContracting := [1]
  rhsNonContracting := [1]
  lhsBatch := []
  rhsBatch := []
  wf := dot_S256x64_S256x8192_S64x8192_0_0_1_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S256x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x8192.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x64x8192.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1024x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16384x64 : Shape := ⟨2, ![16384, 64]⟩
abbrev S16384x8192 : Shape := ⟨2, ![16384, 8192]⟩
abbrev S8192 : Shape := ⟨1, ![8192]⟩
abbrev S64x64 : Shape := ⟨2, ![64, 64]⟩
abbrev S64 : Shape := ⟨1, ![64]⟩
abbrev S_ : Shape := ⟨0, ![]⟩
abbrev S16384 : Shape := ⟨1, ![16384]⟩
abbrev S8192x1 : Shape := ⟨2, ![8192, 1]⟩
abbrev S8192x16384 : Shape := ⟨2, ![8192, 16384]⟩
abbrev S16384x1 : Shape := ⟨2, ![16384, 1]⟩
abbrev S8192x64 : Shape := ⟨2, ![8192, 64]⟩
abbrev S1x64 : Shape := ⟨2, ![1, 64]⟩

abbrev nBuf : Space → Nat
  | .hbm => 34
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x8192, .f32⟩
  | .hbm, ⟨2, _⟩ => ⟨S8192, .f32⟩
  | .hbm, ⟨3, _⟩ => ⟨S64x64, .f32⟩
  | .hbm, ⟨4, _⟩ => ⟨S64, .f32⟩
  | .hbm, ⟨5, _⟩ => ⟨S_, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S_, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S16384x64, .f32⟩
  | .hbm, ⟨16, _⟩ => ⟨S8192x1, .f32⟩
  | .hbm, ⟨17, _⟩ => ⟨S8192x16384, .f32⟩
  | .hbm, ⟨18, _⟩ => ⟨S16384x1, .f32⟩
  | .hbm, ⟨19, _⟩ => ⟨S16384x64, .f32⟩
  | .hbm, ⟨20, _⟩ => ⟨S16384x64, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S8192x1, .f32⟩
  | .hbm, ⟨25, _⟩ => ⟨S8192x64, .f32⟩
  | .hbm, ⟨26, _⟩ => ⟨S8192x64, .f32⟩
  | .hbm, ⟨27, _⟩ => ⟨S16384x1, .f32⟩
  | .hbm, ⟨28, _⟩ => ⟨S16384x64, .f32⟩
  | .hbm, ⟨29, _⟩ => ⟨S16384x64, .f32⟩
  | .hbm, ⟨30, _⟩ => ⟨S16384x64, .f32⟩
  | .hbm, ⟨31, _⟩ => ⟨S1x64, .f32⟩
  | .hbm, ⟨32, _⟩ => ⟨S16384x64, .f32⟩
  | .hbm, ⟨33, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  reducesTo_S16384x8192_S16384_d1 : S16384x8192.ReducesTo [1] S16384
  h_S_ : 0 < S_.numel
  bcast_S_S16384 : S_.BroadcastsInDim S16384 (![] : Fin 0 → Fin S16384.rank)
  reducesTo_S16384x8192_S8192_d0 : S16384x8192.ReducesTo [0] S8192
  bcast_S_S8192 : S_.BroadcastsInDim S8192 (![] : Fin 0 → Fin S8192.rank)
  bcast_S8192_S8192x1_0 : S8192.BroadcastsInDim S8192x1 (![0] : Fin 1 → Fin S8192x1.rank)
  transposes_S16384x8192_S8192x16384_1_0 : S16384x8192.Transposes [1, 0] S8192x16384
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  bcast_S8192x1_S8192x64_0_1 : S8192x1.BroadcastsInDim S8192x64 (![0, 1] : Fin 2 → Fin S8192x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  dot_S16384x64_S64x64_S16384x64_1_0_0_1_n_n_wf : DotDims.WF S16384x64 S64x64 S16384x64 [1] [0] [0] [1] [] []
  dot_S8192x16384_S16384x64_S8192x64_1_0_0_1_n_n_wf : DotDims.WF S8192x16384 S16384x64 S8192x64 [1] [0] [0] [1] [] []
  dot_S16384x8192_S8192x64_S16384x64_1_0_0_1_n_n_wf : DotDims.WF S16384x8192 S8192x64 S16384x64 [1] [0] [0] [1] [] []

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S8192x16384_S16384x64_S8192x64_1_0_0_1_n_n : DotDims S8192x16384 S16384x64 S8192x64 where
  lhsContracting := [1]
  rhsContracting := [0]
  lhsNonContracting := [0]
  rhsNonContracting := [1]
  lhsBatch := []
  rhsBatch := []
  wf := dot_S8192x16384_S16384x64_S8192x64_1_0_0_1_n_n_wf
def dot_S16384x8192_S8192x64_S16384x64_1_0_0_1_n_n : DotDims S16384x8192 S8192x64 S16384x64 where
  lhsContracting := [1]
  rhsContracting := [0]
  lhsNonContracting := [0]
  rhsNonContracting := [1]
  lhsBatch := []
  rhsBatch := []
  wf := dot_S16384x8192_S8192x64_S16384x64_1_0_0_1_n_n_wf

class Facts : Prop extends Facts₀ where

variable [Facts]
-- ==== Proof.Consts.lean ====
/-
  The float literals the two programs spell, as the extended reals they denote: 1, -1/2 and -1.
-/
import Idealize.ShloMosaic.PureOps.Ideal

noncomputable section

namespace Cert.Hgnn.Consts

open Idealize.ShloMosaic

/-- The tiled program's numerator `1.0`. -/
theorem ofBits_one : Ideal.ofBits .f32 0x3F800000#32 = 1 := by
  simp [Ideal.ofBits, Ideal.ieee, -EReal.coe_mul]; norm_num

/-- The direct program's exponent `-0.5`. -/
theorem ofBits_neg_half : Ideal.ofBits .f32 0xBF000000#32 = ((-(1/2) : ℝ) : EReal) := by
  simp [Ideal.ofBits, Ideal.ieee, -EReal.coe_mul]; norm_num

/-- The direct program's exponent `-1.0`. -/
theorem ofBits_neg_one : Ideal.ofBits .f32 0xBF800000#32 = ((-1 : ℝ) : EReal) := by
  simp [Ideal.ofBits, Ideal.ieee, -EReal.coe_mul]; norm_num

end Cert.Hgnn.Consts

end
-- ==== Proof.Spec.lean ====
/-
  Hypergraph convolution, as the two programs compute it on the extended reals.

  With `H` the N×E incidence matrix (N = 16384 vertices, E = 8192 hyperedges), `X` the N×64 features, `Θ` the 64×64
  weight, `w` the E hyperedge weights and `b` the 64 biases, the layer is
      out = D_v^{-1/2} · H · diag(w) · D_e^{-1} · Hᵀ · D_v^{-1/2} · (X Θ) + b,
  where `D_v` holds the row sums of `H` and `D_e` its column sums.

  The tiled program makes two passes over `H`. Pass one walks the 64 row tiles of 256 rows, 32 tiles to each of two
  halves: it writes `d n = (row sum n)^{-1/2}`, and accumulates per half the column sums of its tiles and the products
  `Σ_n (d n · (XΘ) n f) · H n e`. Between the passes the halves are added, the column sums inverted and multiplied by
  `w`, and the product scaled by that. Pass two accumulates `Σ_e H n e · y e f` over four blocks of 2048 columns and
  finishes with `d n · (…) + b f`.

  This file states those values entry by entry (entries addressed by natural numbers, an entry outside the extents
  reading 0, sums over `Finset.range`), so that a running partial sum is a sum over a shorter range.
-/
import Idealize.ShloMosaic.PureOps.Ideal
import Idealize.ShloMosaic.PureOps.Ideal.Laws
import Idealize.ShloMosaic.Lib.ValueIdx

noncomputable section

open scoped BigOperators

namespace Cert.Hgnn

open Idealize.ShloMosaic Idealize.ShloMosaic.ValueIdx Finset

/-- Entry `(i, j)` of a matrix given on index vectors; 0 outside the extents. -/
def ent {a b : ℕ} (A : (⟨2, ![a, b]⟩ : Shape).Idx → EReal) (i j : ℕ) : EReal :=
  if h : i < a ∧ j < b then A (ix2 ⟨i, h.1⟩ ⟨j, h.2⟩) else 0

theorem ent_of_lt {a b : ℕ} (A : (⟨2, ![a, b]⟩ : Shape).Idx → EReal) {i j : ℕ} (hi : i < a) (hj : j < b) :
    ent A i j = A (ix2 ⟨i, hi⟩ ⟨j, hj⟩) := dif_pos ⟨hi, hj⟩

/-- Entry `i` of a vector given on index vectors; 0 outside the extent. -/
def ent1 {a : ℕ} (v : (⟨1, ![a]⟩ : Shape).Idx → EReal) (i : ℕ) : EReal :=
  if h : i < a then v (ix1 ⟨i, h⟩) else 0

theorem ent1_of_lt {a : ℕ} (v : (⟨1, ![a]⟩ : Shape).Idx → EReal) {i : ℕ} (hi : i < a) :
    ent1 v i = v (ix1 ⟨i, hi⟩) := dif_pos hi

/-- Entry `(i, j, k)` of a rank-3 array; 0 outside the extents. -/
def ent3 {a b c : ℕ} (A : (⟨3, ![a, b, c]⟩ : Shape).Idx → EReal) (i j k : ℕ) : EReal :=
  if h : i < a ∧ j < b ∧ k < c then A (ix3 ⟨i, h.1⟩ ⟨j, h.2.1⟩ ⟨k, h.2.2⟩) else 0

theorem ent3_of_lt {a b c : ℕ} (A : (⟨3, ![a, b, c]⟩ : Shape).Idx → EReal) {i j k : ℕ} (hi : i < a) (hj : j < b)
    (hk : k < c) : ent3 A i j k = A (ix3 ⟨i, hi⟩ ⟨j, hj⟩ ⟨k, hk⟩) := dif_pos ⟨hi, hj, hk⟩

abbrev MatH := (⟨2, ![16384, 8192]⟩ : Shape).Idx → EReal
abbrev MatX := (⟨2, ![16384, 64]⟩ : Shape).Idx → EReal
abbrev MatT := (⟨2, ![64, 64]⟩ : Shape).Idx → EReal
abbrev VecE := (⟨1, ![8192]⟩ : Shape).Idx → EReal
abbrev VecB := (⟨1, ![64]⟩ : Shape).Idx → EReal
abbrev ColD := (⟨2, ![16384, 1]⟩ : Shape).Idx → EReal
abbrev HalfE := (⟨3, ![2, 1, 8192]⟩ : Shape).Idx → EReal
abbrev HalfY := (⟨3, ![2, 64, 8192]⟩ : Shape).Idx → EReal
abbrev MatY := (⟨2, ![8192, 64]⟩ : Shape).Idx → EReal
abbrev RowB := (⟨2, ![1, 64]⟩ : Shape).Idx → EReal
abbrev MatO := (⟨2, ![16384, 64]⟩ : Shape).Idx → EReal

/-! ## Pass one -/

section passOne
variable (H : MatH) (X : MatX) (Θ : MatT)

/-- Row sum `n` of `H`. -/
def rowSum (n : ℕ) : EReal := ∑ e ∈ range 8192, ent H n e
/-- The vertex scaling `d n = (row sum n)^{-1/2}`, by the reciprocal square root. -/
def dRs (n : ℕ) : EReal := Ideal.rsqrt (rowSum H n)
/-- `(X Θ) n f`. -/
def xTheta (n f : ℕ) : EReal := ∑ k ∈ range 64, ent X n k * ent Θ k f
/-- Column sum `e` over the 256 rows of row tile `t`. -/
def colTile (t e : ℕ) : EReal := ∑ r ∈ range 256, ent H (t * 256 + r) e
/-- `Σ_r (d · XΘ) (row r of tile t) f · H (row r of tile t) e`. -/
def prodTile (t f e : ℕ) : EReal :=
  ∑ r ∈ range 256, (dRs H (t * 256 + r) * xTheta X Θ (t * 256 + r) f) * ent H (t * 256 + r) e
/-- Column sums after the first `j + 1` tiles of half `c`. -/
def colAcc (c j e : ℕ) : EReal := ∑ k ∈ range (j + 1), colTile H (c * 32 + k) e
/-- The product after the first `j + 1` tiles of half `c`. -/
def prodAcc (c j f e : ℕ) : EReal := ∑ k ∈ range (j + 1), prodTile H X Θ (c * 32 + k) f e

/-- Pass one's first result: the column of vertex scalings. -/
def dCol : ColD := fun i => dRs H (i 0).val
/-- Pass one's second result: per half, the column sums of its 32 tiles. -/
def colHalves : HalfE := fun i => colAcc H (i 0).val 31 (i 2).val
/-- Pass one's third result: per half, the product over its 32 tiles, transposed (feature, hyperedge). -/
def prodHalves : HalfY := fun i => prodAcc H X Θ (i 0).val 31 (i 1).val (i 2).val

end passOne

/-! ## Between the passes -/

/-- The halves added, the column sums inverted (as `one / ·`) and multiplied by `w`, the product scaled and transposed:
    `y e f`. `one` is the program's literal for 1. -/
def yMat (one : EReal) (DE : HalfE) (YT : HalfY) (w : VecE) : MatY := fun i =>
  (0 + ∑ c : Fin 2, YT (ix3 c (i 1) (i 0))) * (Ideal.div one (0 + ∑ c : Fin 2, DE (ix3 c 0 (i 0))) * w (ix1 (i 0)))

/-! ## Pass two -/

section passTwo
variable (H : MatH) (Y : MatY) (D : ColD) (B : RowB)

/-- `Σ_e H n e · y e f` over the 2048 columns of column block `j`. -/
def hyBlock (n j f : ℕ) : EReal := ∑ e ∈ range 2048, ent H n (j * 2048 + e) * ent Y (j * 2048 + e) f
/-- The same after the first `j + 1` column blocks. -/
def hyAcc (n j f : ℕ) : EReal := ∑ k ∈ range (j + 1), hyBlock H Y n k f
/-- Pass two's result: `d n · Σ_e H n e · y e f + b f`. -/
def outMat : MatO := fun i => ent D (i 0).val 0 * hyAcc H Y (i 0).val 3 (i 1).val + ent B 0 (i 1).val

end passTwo

/-- The tiled program's result as one function of its five arguments. -/
def tiled (one : EReal) (X : MatX) (H : MatH) (w : VecE) (Θ : MatT) (b : VecB) : MatO :=
  outMat H (yMat one (colHalves H) (prodHalves H X Θ) w) (dCol H) (fun i => b (ix1 (i 1)))

end Cert.Hgnn

end
-- ==== Proof.Law.lean ====
/-
  The law that joins the two programs: the tiled computation of the hypergraph convolution is the direct one.

  The direct program computes, for vertex `n` and feature `f`,
      d n · Σ_e H n e · (w e · (q e · Σ_m H m e · (d m · (XΘ) m f))) + b f,
  with `d n = (Σ_e H n e) ^ (-1/2)` and `q e = (Σ_n H n e) ^ (-1)` taken by the power function.
  The tiled program takes `d` by the reciprocal square root and `q` by a quotient `1 / ·`, groups the sum over the
  vertices by halves, row tiles and rows, the sum over the hyperedges by column blocks, and multiplies in another order.
  On the extended reals sums regroup freely and products commute and associate, so the two agree as soon as the two
  scalings agree: the reciprocal square root and the power `-1/2` agree on a positive row sum (and at `+∞`), the
  quotient and the power `-1` on a column sum that is a nonzero real.
-/
import proofs.«410302_j87471303950814_3_alg».proof.Proof.Spec

noncomputable section

open scoped BigOperators

namespace Cert.Hgnn

open Idealize.ShloMosaic Idealize.ShloMosaic.ValueIdx Finset

/-- The direct program's result as one function of its five arguments; `z`, `mh`, `mo` are its literals for
    0, -1/2 and -1. -/
def direct (z mh mo : EReal) (X : MatX) (H : MatH) (w : VecE) (Θ : MatT) (b : VecB) : MatO := fun i =>
  Ideal.pow (z + ∑ e : Fin 8192, H (ix2 (i 0) e)) mh
    * (∑ e : Fin 8192, H (ix2 (i 0) e)
        * (w (ix1 e) * (Ideal.pow (z + ∑ n : Fin 16384, H (ix2 n e)) mo
            * ∑ n : Fin 16384, H (ix2 n e)
                * (Ideal.pow (z + ∑ e' : Fin 8192, H (ix2 n e')) mh * ∑ k : Fin 64, X (ix2 n k) * Θ (ix2 k (i 1))))))
    + b (ix1 (i 1))

/-! ## Regrouping sums -/

/-- A sum over `a` groups of `b` consecutive naturals is the sum over the first `a * b`. -/
theorem sum_range_mul {M : Type*} [AddCommMonoid M] (a b : ℕ) (g : ℕ → M) :
    ∑ i ∈ range a, ∑ j ∈ range b, g (i * b + j) = ∑ n ∈ range (a * b), g n := by
  induction a with
  | zero => simp
  | succ a ih => rw [Finset.sum_range_succ, ih, Nat.succ_mul, Finset.sum_range_add]

/-- An entry addressed by two bounded naturals is the entry at the index they form. -/
theorem ent_fin {a b : ℕ} (A : (⟨2, ![a, b]⟩ : Shape).Idx → EReal) (i : Fin a) (j : Fin b) :
    ent A i.val j.val = A (ix2 i j) := ent_of_lt A i.isLt j.isLt

theorem rowSum_fin (H : MatH) (n : Fin 16384) : rowSum H n.val = ∑ e : Fin 8192, H (ix2 n e) := by
  unfold rowSum
  rw [Finset.sum_range]
  exact Finset.sum_congr rfl fun e _ => ent_fin H n e

theorem xTheta_fin (X : MatX) (Θ : MatT) (n : Fin 16384) (f : Fin 64) :
    xTheta X Θ n.val f.val = ∑ k : Fin 64, X (ix2 n k) * Θ (ix2 k f) := by
  unfold xTheta
  rw [Finset.sum_range]
  exact Finset.sum_congr rfl fun k _ => by rw [ent_fin X n k, ent_fin Θ k f]

/-- The two halves' column sums add up to the column sum over all vertices. -/
theorem colHalves_sum (H : MatH) (e : Fin 8192) :
    ∑ c : Fin 2, colHalves H (ix3 c 0 e) = ∑ n : Fin 16384, H (ix2 n e) := by
  have h1 : ∀ c : Fin 2, colHalves H (ix3 c 0 e) = ∑ k ∈ range 32, colTile H (c.val * 32 + k) e.val := fun c => rfl
  rw [Finset.sum_congr rfl fun c _ => h1 c, ← Finset.sum_range (fun c => ∑ k ∈ range 32, colTile H (c * 32 + k) e.val),
    sum_range_mul 2 32 fun t => colTile H t e.val]
  unfold colTile
  rw [sum_range_mul 64 256 fun n => ent H n e.val, Finset.sum_range]
  exact Finset.sum_congr rfl fun n _ => ent_fin H n e

/-- The two halves' products add up to the product over all vertices. -/
theorem prodHalves_sum (H : MatH) (X : MatX) (Θ : MatT) (f : Fin 64) (e : Fin 8192) :
    ∑ c : Fin 2, prodHalves H X Θ (ix3 c f e)
      = ∑ n : Fin 16384, (dRs H n.val * xTheta X Θ n.val f.val) * H (ix2 n e) := by
  have h1 : ∀ c : Fin 2, prodHalves H X Θ (ix3 c f e)
      = ∑ k ∈ range 32, prodTile H X Θ (c.val * 32 + k) f.val e.val := fun c => rfl
  rw [Finset.sum_congr rfl fun c _ => h1 c,
    ← Finset.sum_range (fun c => ∑ k ∈ range 32, prodTile H X Θ (c * 32 + k) f.val e.val),
    sum_range_mul 2 32 fun t => prodTile H X Θ t f.val e.val]
  unfold prodTile
  rw [sum_range_mul 64 256 fun n => (dRs H n * xTheta X Θ n f.val) * ent H n e.val, Finset.sum_range]
  exact Finset.sum_congr rfl fun n _ => by rw [ent_fin H n e]

/-- The four column blocks add up to the sum over all hyperedges. -/
theorem hyAcc_full (H : MatH) (Y : MatY) (n : Fin 16384) (f : Fin 64) :
    hyAcc H Y n.val 3 f.val = ∑ e : Fin 8192, H (ix2 n e) * Y (ix2 e f) := by
  unfold hyAcc hyBlock
  rw [sum_range_mul 4 2048 fun e => ent H n.val e * ent Y e f.val, Finset.sum_range]
  exact Finset.sum_congr rfl fun e _ => by rw [ent_fin H n e, ent_fin Y e f]

/-! ## The two scalings -/

/-- On a positive extended real the reciprocal square root is the power `-1/2` (both are 0 at `+∞`). -/
theorem rsqrt_eq_pow {s : EReal} (hs : 0 < s) : Ideal.rsqrt s = Ideal.pow s ((-(1/2) : ℝ) : EReal) := by
  induction s using EReal.rec with
  | bot => exact absurd hs (by simp)
  | top =>
    rw [Ideal.rsqrt_top, Ideal.pow_top, if_neg (by rw [not_lt]; exact_mod_cast (by norm_num : (-(1/2) : ℝ) ≤ 0)),
      if_neg (by exact_mod_cast (by norm_num : (-(1/2) : ℝ) ≠ 0))]
  | coe r =>
    have hr : 0 < r := by exact_mod_cast hs
    rw [Ideal.rsqrt_coe, if_neg (not_lt.mpr hr.le), if_neg hr.ne', Ideal.pow_coe_coe]
    congr 1
    show (Real.sqrt r)⁻¹ = r ^ (-(1/2) : ℝ)
    rw [Real.rpow_neg hr.le, Real.sqrt_eq_rpow]

/-- On a nonzero real the quotient `1 / ·` is the power `-1`. -/
theorem div_eq_pow {r : ℝ} (hr : r ≠ 0) : Ideal.div 1 (r : EReal) = Ideal.pow (r : EReal) ((-1 : ℝ) : EReal) := by
  rw [Ideal.div_coe hr, one_mul, Ideal.pow_coe_coe]
  congr 1
  show 1 / r = r ^ (-1 : ℝ)
  rw [Real.rpow_neg_one, one_div]

/-- A finite sum of reals is a real. -/
theorem exists_real_sum {ι : Type*} (s : Finset ι) (g : ι → EReal) (hg : ∀ i, ∃ r : ℝ, g i = (r : EReal)) :
    ∃ r : ℝ, ∑ i ∈ s, g i = (r : EReal) := by
  classical
  induction s using Finset.induction_on with
  | empty => exact ⟨0, by simp⟩
  | insert a s ha ih =>
    obtain ⟨r, hr⟩ := ih
    obtain ⟨q, hq⟩ := hg a
    exact ⟨q + r, by rw [Finset.sum_insert ha, hr, hq, EReal.coe_add]⟩

/-! ## The tiled value, entry by entry -/

theorem yMat_apply (one : EReal) (DE : HalfE) (YT : HalfY) (w : VecE) (e : Fin 8192) (f : Fin 64) :
    yMat one DE YT w (ix2 e f)
      = (0 + ∑ c : Fin 2, YT (ix3 c f e)) * (Ideal.div one (0 + ∑ c : Fin 2, DE (ix3 c 0 e)) * w (ix1 e)) := rfl

theorem tiled_apply (one : EReal) (X : MatX) (H : MatH) (w : VecE) (Θ : MatT) (b : VecB) (n : Fin 16384) (f : Fin 64) :
    tiled one X H w Θ b (ix2 n f)
      = dRs H n.val * (∑ e : Fin 8192, H (ix2 n e) * yMat one (colHalves H) (prodHalves H X Θ) w (ix2 e f))
        + b (ix1 f) := by
  unfold tiled outMat
  rw [hyAcc_full H _ n f]
  rw [ent_of_lt (dCol H) n.isLt (by norm_num : 0 < 1),
    ent_of_lt (fun i : (⟨2, ![1, 64]⟩ : Shape).Idx => b (ix1 (i 1))) (by norm_num : 0 < 1) f.isLt]
  rfl

/-! ## The law -/

theorem direct_apply (z mh mo : EReal) (X : MatX) (H : MatH) (w : VecE) (Θ : MatT) (b : VecB) (n : Fin 16384) (f : Fin 64) :
    direct z mh mo X H w Θ b (ix2 n f)
      = Ideal.pow (z + ∑ e : Fin 8192, H (ix2 n e)) mh
          * (∑ e : Fin 8192, H (ix2 n e)
              * (w (ix1 e) * (Ideal.pow (z + ∑ m : Fin 16384, H (ix2 m e)) mo
                  * ∑ m : Fin 16384, H (ix2 m e)
                      * (Ideal.pow (z + ∑ e' : Fin 8192, H (ix2 m e')) mh * ∑ k : Fin 64, X (ix2 m k) * Θ (ix2 k f)))))
          + b (ix1 f) := rfl

/-- The vertex scaling, both ways. -/
theorem dRs_eq_pow (H : MatH) (m : Fin 16384) (h : 0 < (0 : EReal) + ∑ e : Fin 8192, H (ix2 m e)) :
    dRs H m.val = Ideal.pow (0 + ∑ e : Fin 8192, H (ix2 m e)) ((-(1/2) : ℝ) : EReal) := by
  rw [zero_add] at h ⊢
  unfold dRs
  rw [rowSum_fin]
  exact rsqrt_eq_pow h

/-- The hyperedge scaling, both ways. -/
theorem div_colSum_eq_pow (H : MatH) (hH : ∀ i, ∃ r : ℝ, H i = (r : EReal)) (e : Fin 8192)
    (hc : (0 : EReal) + ∑ n : Fin 16384, H (ix2 n e) ≠ 0) :
    Ideal.div 1 (0 + ∑ n : Fin 16384, H (ix2 n e))
      = Ideal.pow (0 + ∑ n : Fin 16384, H (ix2 n e)) ((-1 : ℝ) : EReal) := by
  obtain ⟨r, hr⟩ := exists_real_sum Finset.univ (fun n : Fin 16384 => H (ix2 n e)) fun n => hH _
  rw [hr, zero_add] at hc ⊢
  exact div_eq_pow (by exact_mod_cast hc)

/-- One hyperedge's term, both ways: products commute and associate. -/
theorem edge_term (h S q w' : EReal) : h * (S * (q * w')) = h * (w' * (q * S)) := by
  rw [mul_comm S (q * w'), mul_comm q w', mul_assoc]

/-- THE LAW. With every entry of `H` a real, every row sum positive and every column sum nonzero, the tiled result is the
    direct one. -/
theorem tiled_eq_direct (X : MatX) (H : MatH) (w : VecE) (Θ : MatT) (b : VecB)
    (hH : ∀ i, ∃ r : ℝ, H i = (r : EReal))
    (hrow : ∀ n : Fin 16384, 0 < (0 : EReal) + ∑ e : Fin 8192, H (ix2 n e))
    (hcol : ∀ e : Fin 8192, (0 : EReal) + ∑ n : Fin 16384, H (ix2 n e) ≠ 0) :
    tiled 1 X H w Θ b = direct 0 ((-(1/2) : ℝ) : EReal) ((-1 : ℝ) : EReal) X H w Θ b := by
  funext i
  obtain ⟨n, f, rfl⟩ : ∃ (n : Fin 16384) (f : Fin 64), i = ix2 n f := ⟨i 0, i 1, eq_ix2 i⟩
  rw [tiled_apply, direct_apply, dRs_eq_pow H n (hrow n)]
  refine congrArg (· + b (ix1 f)) (congrArg (_ * ·) (Finset.sum_congr rfl fun e _ => ?_))
  rw [yMat_apply, prodHalves_sum, colHalves_sum, div_colSum_eq_pow H hH e (hcol e), zero_add]
  have hS : ∑ m : Fin 16384, (dRs H m.val * xTheta X Θ m.val f.val) * H (ix2 m e)
      = ∑ m : Fin 16384, H (ix2 m e)
          * (Ideal.pow (0 + ∑ e' : Fin 8192, H (ix2 m e')) ((-(1/2) : ℝ) : EReal) * ∑ k : Fin 64, X (ix2 m k) * Θ (ix2 k f)) :=
    Finset.sum_congr rfl fun m _ => by rw [dRs_eq_pow H m (hrow m), xTheta_fin, mul_comm]
  rw [hS]
  exact edge_term _ _ _ _

end Cert.Hgnn

end
-- ==== Proof.PassOne.lean ====
/-
  Pass one of the tiled hypergraph convolution, read as values on the extended reals.

  The pass walks the 64 row tiles of the incidence matrix `H` (256 rows each), 32 tiles to each of two halves. At tile
  `t` it stores `d n = (Σ_e H n e)^{-1/2}` for the tile's rows `n = 256 t + r`, and adds to the half's two accumulators
  the tile's column sums `Σ_r H n e` and the tile's product `Σ_r (d n · (X Θ) n f) · H n e`; the first tile of a half
  starts the accumulators from zero and the last one hands them over.

  The order of the argument: what one run of the body leaves in the three result buffers, as the stored values of the
  loaded tiles; those values entry by entry (two lane sums, two matrix products, casts that add or drop unit axes);
  an entry of a tile as an entry of its array; by induction on the point, the buffers after every point as the
  specification's running sums `colAcc`, `prodAcc` and scalings `dRs`; and from the points that hand a block over, the
  three result arrays `dCol`, `colHalves`, `prodHalves`.
-/
import proofs.«410302_j87471303950814_3_alg».proof.Proof.Gen.KernelIdeal.Frame
import proofs.«410302_j87471303950814_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.PassOne

open Cert.KernelIdeal Cert.KernelIdeal.Gen

variable (V : (c : Dev nD) → (b : Ref sig .tc) → Buf (Elt Ideal) ((c : Thread nD τ).loc b))

/-! ## What one run of the body leaves in each result's staging buffer

The body at a point loads the tile of `H` (`x0`), of `X` (`x1`) and `Θ` (`x2`). Whatever the case it stores the
scalings of the tile's rows. At the first tile of a half it stores zeros into the two accumulators and then adds this
tile's column sums and product to what it reads back, the zeros; at every other tile it adds them to what the
accumulators held (`xo4`, `xo5`). -/

section pieces
variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- First tile of a half: the scalings of the tile's rows. -/
theorem scaling_first (c : Dev nD) (i : grid0.Coords) (a2 : Memref sig .tc .vmem S256x8192 .f32) (h2 : a2.IsWhole)
    (a3 : Memref sig .tc .vmem S256x64 .f32) (h3 : a3.IsWhole) (a4 : Memref sig .tc .vmem S64x64 .f32) (h4 : a4.IsWhole)
    (a5 : Memref sig .tc .vmem S256x1 .f32) (h5 : a5.IsWhole) (a6 : Memref sig .tc .vmem S1x1x8192 .f32) (h6 : a6.IsWhole)
    (a7 : Memref sig .tc .vmem S1x64x8192 .f32) (h7 : a7.IsWhole) (hc : cond0_0 i)
    (x0 : Vec F S256x8192 .f32) (x1 : Vec F S256x64 .f32) (x2 : Vec F S64x64 .f32) :
    out0_A_3 c i a2 h2 a3 h3 a4 h4 a5 h5 a6 h6 a7 h7 hc x0 x1 x2 = k0_pay2 x0 := by
  unfold out0_A_3
  rw [View.read_writes_eq_canon _ _ _ (cover0_A_3 c i a2 h2 a3 h3 a4 h4 a5 h5 a6 h6 a7 h7 hc x0 x1 x2)]
  unfold kernelRun0_A
  dsimp only
  sl_unfold_words
  rw [View.canon_unit_zero zeros2]
  simp only [View.readAt_eq_ld, h2.read_unread, View.ld_unit_zero (S := S256x8192) zeros2]

/-- First tile of a half: the zeros plus the tile's column sums. -/
theorem colSums_first (c : Dev nD) (i : grid0.Coords) (a2 : Memref sig .tc .vmem S256x8192 .f32) (h2 : a2.IsWhole)
    (a3 : Memref sig .tc .vmem S256x64 .f32) (h3 : a3.IsWhole) (a4 : Memref sig .tc .vmem S64x64 .f32) (h4 : a4.IsWhole)
    (a5 : Memref sig .tc .vmem S256x1 .f32) (h5 : a5.IsWhole) (a6 : Memref sig .tc .vmem S1x1x8192 .f32) (h6 : a6.IsWhole)
    (a7 : Memref sig .tc .vmem S1x64x8192 .f32) (h7 : a7.IsWhole) (hc : cond0_0 i)
    (x0 : Vec F S256x8192 .f32) (x1 : Vec F S256x64 .f32) (x2 : Vec F S64x64 .f32) :
    out0_A_4 c i a2 h2 a3 h3 a4 h4 a5 h5 a6 h6 a7 h7 hc x0 x1 x2 = k0_pay5 x0 (k0_pay3 (F := F)) := by
  unfold out0_A_4
  rw [View.read_writes_eq_canon _ _ _ (cover0_A_4 c i a2 h2 a3 h3 a4 h4 a5 h5 a6 h6 a7 h7 hc x0 x1 x2)]
  unfold kernelRun0_A
  dsimp only
  sl_unfold_words
  rw [View.canon_cons_unit_zero (S := S1x1x8192) zeros3]
  simp only [View.readAt_eq_ld, h2.read_unread, View.ld_unit_zero (S := S256x8192) zeros2,
    View.readCov_unit_zero (S := S1x1x8192) _ zeros3]

/-- First tile of a half: the zeros plus the tile's product. -/
theorem product_first (c : Dev nD) (i : grid0.Coords) (a2 : Memref sig .tc .vmem S256x8192 .f32) (h2 : a2.IsWhole)
    (a3 : Memref sig .tc .vmem S256x64 .f32) (h3 : a3.IsWhole) (a4 : Memref sig .tc .vmem S64x64 .f32) (h4 : a4.IsWhole)
    (a5 : Memref sig .tc .vmem S256x1 .f32) (h5 : a5.IsWhole) (a6 : Memref sig .tc .vmem S1x1x8192 .f32) (h6 : a6.IsWhole)
    (a7 : Memref sig .tc .vmem S1x64x8192 .f32) (h7 : a7.IsWhole) (hc : cond0_0 i)
    (x0 : Vec F S256x8192 .f32) (x1 : Vec F S256x64 .f32) (x2 : Vec F S64x64 .f32) :
    out0_A_5 c i a2 h2 a3 h3 a4 h4 a5 h5 a6 h6 a7 h7 hc x0 x1 x2 = k0_pay1 (k0_pay6 x0 x1 x2 (k0_pay4 (F := F))) := by
  unfold out0_A_5
  rw [View.read_writes_eq_canon _ _ _ (cover0_A_5 c i a2 h2 a3 h3 a4 h4 a5 h5 a6 h6 a7 h7 hc x0 x1 x2)]
  unfold kernelRun0_A
  dsimp only
  sl_unfold_words
  rw [View.canon_cons_unit_zero (S := S1x64x8192) zeros3]
  simp only [View.readAt_eq_ld, h2.read_unread, h3.read_unread, h4.read_unread, View.ld_unit_zero (S := S256x8192) zeros2,
    View.ld_unit_zero (S := S256x64) zeros2, View.ld_unit_zero (S := S64x64) zeros2,
    View.readCov_unit_zero (S := S1x64x8192) _ zeros3]

/-- A later tile: the scalings of the tile's rows. -/
theorem scaling_later (c : Dev nD) (i : grid0.Coords) (a2 : Memref sig .tc .vmem S256x8192 .f32) (h2 : a2.IsWhole)
    (a3 : Memref sig .tc .vmem S256x64 .f32) (h3 : a3.IsWhole) (a4 : Memref sig .tc .vmem S64x64 .f32) (h4 : a4.IsWhole)
    (a5 : Memref sig .tc .vmem S256x1 .f32) (h5 : a5.IsWhole) (a6 : Memref sig .tc .vmem S1x1x8192 .f32) (h6 : a6.IsWhole)
    (a7 : Memref sig .tc .vmem S1x64x8192 .f32) (h7 : a7.IsWhole) (hc : ¬cond0_0 i)
    (x0 : Vec F S256x8192 .f32) (x1 : Vec F S256x64 .f32) (x2 : Vec F S64x64 .f32)
    (xo4 : Vec F S1x1x8192 .f32) (xo5 : Vec F S1x64x8192 .f32) :
    out0_B_3 c i a2 h2 a3 h3 a4 h4 a5 h5 a6 h6 a7 h7 hc x0 x1 x2 xo4 xo5 = k0_pay2 x0 := by
  unfold out0_B_3
  rw [View.read_writes_eq_canon _ _ _ (cover0_B_3 c i a2 h2 a3 h3 a4 h4 a5 h5 a6 h6 a7 h7 hc x0 x1 x2 xo4 xo5)]
  unfold kernelRun0_B
  dsimp only
  sl_unfold_words
  rw [View.canon_unit_zero zeros2]
  simp only [View.readAt_eq_ld, h2.read_unread, View.ld_unit_zero (S := S256x8192) zeros2]

/-- A later tile: the running column sums plus the tile's. -/
theorem colSums_later (c : Dev nD) (i : grid0.Coords) (a2 : Memref sig .tc .vmem S256x8192 .f32) (h2 : a2.IsWhole)
    (a3 : Memref sig .tc .vmem S256x64 .f32) (h3 : a3.IsWhole) (a4 : Memref sig .tc .vmem S64x64 .f32) (h4 : a4.IsWhole)
    (a5 : Memref sig .tc .vmem S256x1 .f32) (h5 : a5.IsWhole) (a6 : Memref sig .tc .vmem S1x1x8192 .f32) (h6 : a6.IsWhole)
    (a7 : Memref sig .tc .vmem S1x64x8192 .f32) (h7 : a7.IsWhole) (hc : ¬cond0_0 i)
    (x0 : Vec F S256x8192 .f32) (x1 : Vec F S256x64 .f32) (x2 : Vec F S64x64 .f32)
    (xo4 : Vec F S1x1x8192 .f32) (xo5 : Vec F S1x64x8192 .f32) :
    out0_B_4 c i a2 h2 a3 h3 a4 h4 a5 h5 a6 h6 a7 h7 hc x0 x1 x2 xo4 xo5 = k0_pay5 x0 xo4 := by
  unfold out0_B_4
  rw [View.read_writes_eq_canon _ _ _ (cover0_B_4 c i a2 h2 a3 h3 a4 h4 a5 h5 a6 h6 a7 h7 hc x0 x1 x2 xo4 xo5)]
  unfold kernelRun0_B
  dsimp only
  sl_unfold_words
  rw [View.canon_unit_zero zeros3]
  simp only [View.readAt_eq_ld, h2.read_unread, h6.read_unread, View.ld_unit_zero (S := S256x8192) zeros2,
    View.ld_unit_zero (S := S1x1x8192) zeros3]

/-- A later tile: the running product plus the tile's. -/
theorem product_later (c : Dev nD) (i : grid0.Coords) (a2 : Memref sig .tc .vmem S256x8192 .f32) (h2 : a2.IsWhole)
    (a3 : Memref sig .tc .vmem S256x64 .f32) (h3 : a3.IsWhole) (a4 : Memref sig .tc .vmem S64x64 .f32) (h4 : a4.IsWhole)
    (a5 : Memref sig .tc .vmem S256x1 .f32) (h5 : a5.IsWhole) (a6 : Memref sig .tc .vmem S1x1x8192 .f32) (h6 : a6.IsWhole)
    (a7 : Memref sig .tc .vmem S1x64x8192 .f32) (h7 : a7.IsWhole) (hc : ¬cond0_0 i)
    (x0 : Vec F S256x8192 .f32) (x1 : Vec F S256x64 .f32) (x2 : Vec F S64x64 .f32)
    (xo4 : Vec F S1x1x8192 .f32) (xo5 : Vec F S1x64x8192 .f32) :
    out0_B_5 c i a2 h2 a3 h3 a4 h4 a5 h5 a6 h6 a7 h7 hc x0 x1 x2 xo4 xo5 = k0_pay1 (k0_pay6 x0 x1 x2 xo5) := by
  unfold out0_B_5
  rw [View.read_writes_eq_canon _ _ _ (cover0_B_5 c i a2 h2 a3 h3 a4 h4 a5 h5 a6 h6 a7 h7 hc x0 x1 x2 xo4 xo5)]
  unfold kernelRun0_B
  dsimp only
  sl_unfold_words
  rw [View.canon_unit_zero zeros3]
  simp only [View.readAt_eq_ld, h2.read_unread, h3.read_unread, h4.read_unread, h7.read_unread,
    View.ld_unit_zero (S := S256x8192) zeros2, View.ld_unit_zero (S := S256x64) zeros2,
    View.ld_unit_zero (S := S64x64) zeros2, View.ld_unit_zero (S := S1x64x8192) zeros3]

end pieces

/-! ## The stored values entry by entry, on the extended reals

Over a tile `x0` of `H` (256 rows), a tile `x1` of `X` and `x2 = Θ`: the scaling of row `r` is the reciprocal square root
of the row's sum; the column-sum accumulator gains `Σ_r x0 r e`; the product accumulator gains
`Σ_r (d r · (x1 x2) r f) · x0 r e`, the second product contracting the ROW axis of both its operands. -/

section payloads

/-- A vector `[a]` viewed as a column `[a, 1]` reads, at `(i, u)`, the vector at `i`. -/
theorem colOfVec_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along its unit axis to `[a, b]` reads, at `(i, j)`, the column at `i`. -/
theorem colBroadcast_apply {α : Type} {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    split
    · have := i.isLt; omega
    · rfl
  | ⟨1, _⟩ => rfl

/-- The lane sum of row `r` of the tile. -/
theorem rowSums_apply (x0 : Vec Ideal S256x8192 .f32) (r : Fin 256) :
    multiReduction (F := Ideal) .add [1] S256 x0 0x00000000#32 reduces_S256x8192_S256 (.inl rfl) rfl (ix1 r)
      = ∑ e : Fin 8192, x0 (ix2 r e) := by
  refine (Ideal.multiReduction_add_single (φ := .f32) x0 0x00000000#32 reduces_S256x8192_S256 (.inl rfl) rfl (ix1 r)).trans ?_
  exact Finset.sum_congr rfl fun e _ => congrArg x0 (funext fun a => Fin.ext (by
    match a with
    | ⟨0, _⟩ => rfl
    | ⟨1, _⟩ => rfl))

/-- The sum down column `e` of the tile. -/
theorem colSums_apply (x0 : Vec Ideal S256x8192 .f32) (e : Fin 8192) :
    multiReduction (F := Ideal) .add [0] S8192 x0 0x00000000#32 reduces_S256x8192_S8192 (.inl rfl) rfl (ix1 e)
      = ∑ r : Fin 256, x0 (ix2 r e) := by
  refine (Ideal.multiReduction_add_single (φ := .f32) x0 0x00000000#32 reduces_S256x8192_S8192 (.inl rfl) rfl (ix1 e)).trans ?_
  exact Finset.sum_congr rfl fun r _ => congrArg x0 (funext fun a => Fin.ext (by
    match a with
    | ⟨0, _⟩ => rfl
    | ⟨1, _⟩ => rfl))

/-- The scaling of row `r`: the reciprocal square root of the row's sum. -/
theorem scaling_apply (x0 : Vec Ideal S256x8192 .f32) (r : Fin 256) (u : Fin 1) :
    k0_pay2 (F := Ideal) x0 (ix2 r u) = Ideal.rsqrt (∑ e : Fin 8192, x0 (ix2 r e)) := by
  unfold k0_pay2
  show Ideal.rsqrt (shapeCast S256x1 (multiReduction (F := Ideal) .add [1] S256 x0 0x00000000#32 reduces_S256x8192_S256 (.inl rfl) rfl) shapeCasts_S256_S256x1 (ix2 r u)) = _
  refine congrArg Ideal.rsqrt ?_
  exact (colOfVec_apply _ shapeCasts_S256_S256x1 r u).trans (rowSums_apply x0 r)

/-- The zeros the first tile of a half stores into the column-sum accumulator. -/
theorem zeroCols_apply (i : S1x1x8192.Idx) : k0_pay3 (F := Ideal) i = 0 := by
  unfold k0_pay3
  show Ideal.ofBits .f32 0x00000000#32 = 0
  exact Ideal.ofBits_zero_f32

/-- The zeros it stores into the product accumulator. -/
theorem zeroProd_apply (i : S1x64x8192.Idx) : k0_pay4 (F := Ideal) i = 0 := by
  unfold k0_pay4
  show Ideal.ofBits .f32 0x00000000#32 = 0
  exact Ideal.ofBits_zero_f32

/-- The column-sum accumulator after a tile: what it held plus the tile's column sums. -/
theorem colSums_step (x0 : Vec Ideal S256x8192 .f32) (acc : Vec Ideal S1x1x8192 .f32) (u v : Fin 1) (e : Fin 8192) :
    k0_pay5 (F := Ideal) x0 acc (ix3 u v e) = acc (ix3 (0 : Fin 1) v e) + ∑ r : Fin 256, x0 (ix2 r e) := by
  unfold k0_pay5
  refine (shapeCast_ab_1ab_apply _ shapeCasts_S1x8192_S1x1x8192 u v e).trans ?_
  refine (addf_apply _ _ (ix2 v e)).trans ?_
  refine congrArg₂ (· + ·) ?_ ?_
  · exact shapeCast_1ab_ab_apply acc shapeCasts_S1x1x8192_S1x8192 v e
  · exact (shapeCast_a_1a_apply _ shapeCasts_S8192_S1x8192 v e).trans (colSums_apply x0 e)

/-! ### The two products -/

/-- The operand indices of the first product, at output index `j` and contraction index `q`: the left operand at
    `(j 0, q)`, the right at `(q, j 1)`. -/
theorem xTheta_lhs_0 (j : S256x64.Idx) (q : dot_S256x64_S64x64_S256x64_1_0_0_1_n_n.contr.Idx) :
    (dot_S256x64_S64x64_S256x64_1_0_0_1_n_n.lhsIdx j q 0).val = (j 0).val := by
  unfold DotDims.lhsIdx
  rw [dif_neg (show ¬(0 : Fin S256x64.rank) ∈ dot_S256x64_S64x64_S256x64_1_0_0_1_n_n.lhsBatch by decide), dif_pos (show (0 : Fin S256x64.rank) ∈ dot_S256x64_S64x64_S256x64_1_0_0_1_n_n.lhsNonContracting by decide)]
  rfl
theorem xTheta_lhs_1 (j : S256x64.Idx) (q : dot_S256x64_S64x64_S256x64_1_0_0_1_n_n.contr.Idx) :
    (dot_S256x64_S64x64_S256x64_1_0_0_1_n_n.lhsIdx j q 1).val = (q ⟨0, by decide⟩).val :=
  dot_S256x64_S64x64_S256x64_1_0_0_1_n_n.lhsIdx_val_of_single rfl j q
theorem xTheta_rhs_0 (j : S256x64.Idx) (q : dot_S256x64_S64x64_S256x64_1_0_0_1_n_n.contr.Idx) :
    (dot_S256x64_S64x64_S256x64_1_0_0_1_n_n.rhsIdx j q 0).val = (q ⟨0, by decide⟩).val :=
  dot_S256x64_S64x64_S256x64_1_0_0_1_n_n.rhsIdx_val_of_single rfl j q
theorem xTheta_rhs_1 (j : S256x64.Idx) (q : dot_S256x64_S64x64_S256x64_1_0_0_1_n_n.contr.Idx) :
    (dot_S256x64_S64x64_S256x64_1_0_0_1_n_n.rhsIdx j q 1).val = (j 1).val := by
  unfold DotDims.rhsIdx
  rw [dif_neg (show ¬(1 : Fin S64x64.rank) ∈ dot_S256x64_S64x64_S256x64_1_0_0_1_n_n.rhsBatch by decide), dif_pos (show (1 : Fin S64x64.rank) ∈ dot_S256x64_S64x64_S256x64_1_0_0_1_n_n.rhsNonContracting by decide)]
  rfl

/-- `(x1 x2) r f = Σ_k x1 r k · x2 k f`. -/
theorem xTheta_apply (x1 : FVec Ideal S256x64 .bf16) (x2 : FVec Ideal S64x64 .bf16) (r : Fin 256) (f : Fin 64) :
    matmul (F := Ideal) dot_S256x64_S64x64_S256x64_1_0_0_1_n_n none x1 x2 (constant S256x64 .f32 0x00000000#32) (ix2 r f)
      = ∑ k : Fin 64, x1 (ix2 r k) * x2 (ix2 k f) := by
  simp only [matmul]
  rw [Ideal.matmul_constant_zero_apply, ← Equiv.sum_comp (contrEquiv1 dot_S256x64_S64x64_S256x64_1_0_0_1_n_n 64 rfl rfl).symm]
  refine Finset.sum_congr rfl fun k _ => ?_
  have hk := contrEquiv1_symm_val dot_S256x64_S64x64_S256x64_1_0_0_1_n_n 64 rfl rfl k
  have el : dot_S256x64_S64x64_S256x64_1_0_0_1_n_n.lhsIdx (ix2 r f) ((contrEquiv1 dot_S256x64_S64x64_S256x64_1_0_0_1_n_n 64 rfl rfl).symm k) = ix2 r k := funext fun a => Fin.ext (by
    match a with
    | ⟨0, _⟩ => exact xTheta_lhs_0 _ _
    | ⟨1, _⟩ => exact (xTheta_lhs_1 _ _).trans hk)
  have er : dot_S256x64_S64x64_S256x64_1_0_0_1_n_n.rhsIdx (ix2 r f) ((contrEquiv1 dot_S256x64_S64x64_S256x64_1_0_0_1_n_n 64 rfl rfl).symm k) = ix2 k f := funext fun a => Fin.ext (by
    match a with
    | ⟨0, _⟩ => exact (xTheta_rhs_0 _ _).trans hk
    | ⟨1, _⟩ => exact xTheta_rhs_1 _ _)
  rw [el, er]

/-- The operand indices of the second product: the left operand at `(q, j 0)`, the right at `(q, j 1)`. -/
theorem prodTile_lhs_0 (j : S64x8192.Idx) (q : dot_S256x64_S256x8192_S64x8192_0_0_1_1_n_n.contr.Idx) :
    (dot_S256x64_S256x8192_S64x8192_0_0_1_1_n_n.lhsIdx j q 0).val = (q ⟨0, by decide⟩).val :=
  dot_S256x64_S256x8192_S64x8192_0_0_1_1_n_n.lhsIdx_val_of_single rfl j q
theorem prodTile_lhs_1 (j : S64x8192.Idx) (q : dot_S256x64_S256x8192_S64x8192_0_0_1_1_n_n.contr.Idx) :
    (dot_S256x64_S256x8192_S64x8192_0_0_1_1_n_n.lhsIdx j q 1).val = (j 0).val := by
  unfold DotDims.lhsIdx
  rw [dif_neg (show ¬(1 : Fin S256x64.rank) ∈ dot_S256x64_S256x8192_S64x8192_0_0_1_1_n_n.lhsBatch by decide), dif_pos (show (1 : Fin S256x64.rank) ∈ dot_S256x64_S256x8192_S64x8192_0_0_1_1_n_n.lhsNonContracting by decide)]
  rfl
theorem prodTile_rhs_0 (j : S64x8192.Idx) (q : dot_S256x64_S256x8192_S64x8192_0_0_1_1_n_n.contr.Idx) :
    (dot_S256x64_S256x8192_S64x8192_0_0_1_1_n_n.rhsIdx j q 0).val = (q ⟨0, by decide⟩).val :=
  dot_S256x64_S256x8192_S64x8192_0_0_1_1_n_n.rhsIdx_val_of_single rfl j q
theorem prodTile_rhs_1 (j : S64x8192.Idx) (q : dot_S256x64_S256x8192_S64x8192_0_0_1_1_n_n.contr.Idx) :
    (dot_S256x64_S256x8192_S64x8192_0_0_1_1_n_n.rhsIdx j q 1).val = (j 1).val := by
  unfold DotDims.rhsIdx
  rw [dif_neg (show ¬(1 : Fin S256x8192.rank) ∈ dot_S256x64_S256x8192_S64x8192_0_0_1_1_n_n.rhsBatch by decide), dif_pos (show (1 : Fin S256x8192.rank) ∈ dot_S256x64_S256x8192_S64x8192_0_0_1_1_n_n.rhsNonContracting by decide)]
  rfl

/-- The product that contracts the row axis of both operands: at `(f, e)` it is `Σ_r a r f · b r e`. -/
theorem prodTile_apply (a : FVec Ideal S256x64 .bf16) (b : FVec Ideal S256x8192 .bf16) (f : Fin 64) (e : Fin 8192) :
    matmul (F := Ideal) dot_S256x64_S256x8192_S64x8192_0_0_1_1_n_n none a b (constant S64x8192 .f32 0x00000000#32) (ix2 f e)
      = ∑ r : Fin 256, a (ix2 r f) * b (ix2 r e) := by
  simp only [matmul]
  rw [Ideal.matmul_constant_zero_apply, ← Equiv.sum_comp (contrEquiv1 dot_S256x64_S256x8192_S64x8192_0_0_1_1_n_n 256 rfl rfl).symm]
  refine Finset.sum_congr rfl fun r _ => ?_
  have hr := contrEquiv1_symm_val dot_S256x64_S256x8192_S64x8192_0_0_1_1_n_n 256 rfl rfl r
  have el : dot_S256x64_S256x8192_S64x8192_0_0_1_1_n_n.lhsIdx (ix2 f e) ((contrEquiv1 dot_S256x64_S256x8192_S64x8192_0_0_1_1_n_n 256 rfl rfl).symm r) = ix2 r f := funext fun a => Fin.ext (by
    match a with
    | ⟨0, _⟩ => exact (prodTile_lhs_0 _ _).trans hr
    | ⟨1, _⟩ => exact prodTile_lhs_1 _ _)
  have er : dot_S256x64_S256x8192_S64x8192_0_0_1_1_n_n.rhsIdx (ix2 f e) ((contrEquiv1 dot_S256x64_S256x8192_S64x8192_0_0_1_1_n_n 256 rfl rfl).symm r) = ix2 r e := funext fun a => Fin.ext (by
    match a with
    | ⟨0, _⟩ => exact (prodTile_rhs_0 _ _).trans hr
    | ⟨1, _⟩ => exact prodTile_rhs_1 _ _)
  rw [el, er]

/-- The product accumulator after a tile: what it held plus `Σ_r (d r · (x1 x2) r f) · x0 r e`. -/
theorem product_step (x0 : Vec Ideal S256x8192 .f32) (x1 : Vec Ideal S256x64 .f32) (x2 : Vec Ideal S64x64 .f32)
    (acc : Vec Ideal S1x64x8192 .f32) (u : Fin 1) (f : Fin 64) (e : Fin 8192) :
    k0_pay1 (F := Ideal) (k0_pay6 (F := Ideal) x0 x1 x2 acc) (ix3 u f e)
      = acc (ix3 (0 : Fin 1) f e)
        + ∑ r : Fin 256, (Ideal.rsqrt (∑ e' : Fin 8192, x0 (ix2 r e')) * ∑ k : Fin 64, x1 (ix2 r k) * x2 (ix2 k f)) * x0 (ix2 r e) := by
  unfold k0_pay1
  refine (shapeCast_ab_1ab_apply _ shapeCasts_S64x8192_S1x64x8192 u f e).trans ?_
  unfold k0_pay6
  refine (addf_apply _ _ (ix2 f e)).trans ?_
  refine congrArg₂ (· + ·) (shapeCast_1ab_ab_apply acc shapeCasts_S1x64x8192_S64x8192 f e) ?_
  refine (prodTile_apply _ _ f e).trans ?_
  refine Finset.sum_congr rfl fun r _ => ?_
  refine congrArg₂ (· * ·) ?_ rfl
  refine (mulf_apply _ _ (ix2 r f)).trans ?_
  refine congrArg₂ (· * ·) ?_ (xTheta_apply _ _ r f)
  exact (colBroadcast_apply _ broadcasts_S256x1_S256x64 r f).trans (scaling_apply x0 r 0)

end payloads

/-! ## A tile's entry is an entry of the array

Point `t` of the grid reads row tile `t` of `H` and of `X` (256 rows each, every column) and the whole of `Θ`; it writes
rows `256 t …` of the scalings and, with the last tile of a half, that half's accumulators. An element of a block sits,
on each axis, at the block's index times the block's size plus its coordinate in the block. -/

section blocks

/-- Row tile `t` of `H`, of `X`, and `Θ`, as the body finds them in its staging buffers; and the three arrays. -/
abbrev hTile (c : Dev nD) (t : Fin cfg0.N) : Vec Ideal S256x8192 .f32 := iblk0 V c 0 t
abbrev xTile (c : Dev nD) (t : Fin cfg0.N) : Vec Ideal S256x64 .f32 := iblk0 V c 1 t
abbrev thetaBlk (c : Dev nD) (t : Fin cfg0.N) : Vec Ideal S64x64 .f32 := iblk0 V c 2 t
abbrev hArr (c : Dev nD) : Cert.Hgnn.MatH := V c main_arg1
abbrev xArr (c : Dev nD) : Cert.Hgnn.MatX := V c main_arg0
abbrev thArr (c : Dev nD) : Cert.Hgnn.MatT := V c main_arg3

/-- The block indices over the grid: the inputs' and the scalings' row tile is the point, the accumulators' block the half. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = t.val / 32 ∧ win0_4.index t (1 : Fin 3) = 0 ∧ win0_4.index t (2 : Fin 3) = 0
    ∧ win0_5.index t (0 : Fin 3) = t.val / 32 ∧ win0_5.index t (1 : Fin 3) = 0 ∧ win0_5.index t (2 : Fin 3) = 0 :=
  (by decide +kernel : ∀ t : Fin grid0.N, _)

theorem point_lt (t : Fin cfg0.N) : t.val < 64 := lt_of_lt_of_eq t.isLt (show cfg0.N = 64 from N_0)

/-- Entry `(r, e)` of tile `t` of `H` is `H (256 t + r) e`. -/
theorem hTile_apply (c : Dev nD) (t : Fin cfg0.N) (r : Fin 256) (e : Fin 8192) :
    hTile V c t (ix2 r e) = Cert.Hgnn.ent (hArr V c) (t.val * 256 + r.val) e.val := by
  have ht := point_lt t
  obtain ⟨e0, e1, -⟩ := block_index t
  rw [Cert.Hgnn.ent_of_lt _ (show t.val * 256 + r.val < 16384 by omega) e.isLt]
  show V c main_arg1 (((cfg0.win 0).blk t).view.emb (ix2 r e)) = V c main_arg1 _
  refine congrArg (V c main_arg1) (funext fun a => Fin.ext ?_)
  match a with
  | ⟨0, _⟩ => show win0_0.index t (0 : Fin 2) * 256 + 1 * r.val = t.val * 256 + r.val; rw [e0]; omega
  | ⟨1, _⟩ => show win0_0.index t (1 : Fin 2) * 8192 + 1 * e.val = e.val; rw [e1]; omega

/-- Entry `(r, k)` of tile `t` of `X` is `X (256 t + r) k`. -/
theorem xTile_apply (c : Dev nD) (t : Fin cfg0.N) (r : Fin 256) (k : Fin 64) :
    xTile V c t (ix2 r k) = Cert.Hgnn.ent (xArr V c) (t.val * 256 + r.val) k.val := by
  have ht := point_lt t
  obtain ⟨-, -, e0, e1, -⟩ := block_index t
  rw [Cert.Hgnn.ent_of_lt _ (show t.val * 256 + r.val < 16384 by omega) k.isLt]
  show V c main_arg0 (((cfg0.win 1).blk t).view.emb (ix2 r k)) = V c main_arg0 _
  refine congrArg (V c main_arg0) (funext fun a => Fin.ext ?_)
  match a with
  | ⟨0, _⟩ => show win0_1.index t (0 : Fin 2) * 256 + 1 * r.val = t.val * 256 + r.val; rw [e0]; omega
  | ⟨1, _⟩ => show win0_1.index t (1 : Fin 2) * 64 + 1 * k.val = k.val; rw [e1]; omega

/-- The block of `Θ` is `Θ` at every point. -/
theorem thetaBlk_apply (c : Dev nD) (t : Fin cfg0.N) (k f : Fin 64) :
    thetaBlk V c t (ix2 k f) = Cert.Hgnn.ent (thArr V c) k.val f.val := by
  obtain ⟨-, -, -, -, e0, e1, -⟩ := block_index t
  rw [Cert.Hgnn.ent_of_lt _ k.isLt f.isLt]
  show V c main_arg3 (((cfg0.win 2).blk t).view.emb (ix2 k f)) = V c main_arg3 _
  refine congrArg (V c main_arg3) (funext fun a => Fin.ext ?_)
  match a with
  | ⟨0, _⟩ => show win0_2.index t (0 : Fin 2) * 64 + 1 * k.val = k.val; rw [e0]; omega
  | ⟨1, _⟩ => show win0_2.index t (1 : Fin 2) * 64 + 1 * f.val = f.val; rw [e1]; omega

end blocks

/-! ## One tile's contribution, in the specification's terms -/

section tiles

/-- The scaling of row `r` of tile `t` is `d (256 t + r)`. -/
theorem rowScaling_eq (c : Dev nD) (t : Fin cfg0.N) (r : Fin 256) :
    Ideal.rsqrt (∑ e : Fin 8192, hTile V c t (ix2 r e)) = Cert.Hgnn.dRs (hArr V c) (t.val * 256 + r.val) := by
  unfold Cert.Hgnn.dRs Cert.Hgnn.rowSum
  rw [Finset.sum_range]
  exact congrArg Ideal.rsqrt (Finset.sum_congr rfl fun e _ => hTile_apply V c t r e)

/-- Row `r` of tile `t` of `X` times column `f` of `Θ` is `(X Θ) (256 t + r) f`. -/
theorem xTheta_eq (c : Dev nD) (t : Fin cfg0.N) (r : Fin 256) (f : Fin 64) :
    ∑ k : Fin 64, xTile V c t (ix2 r k) * thetaBlk V c t (ix2 k f)
      = Cert.Hgnn.xTheta (xArr V c) (thArr V c) (t.val * 256 + r.val) f.val := by
  unfold Cert.Hgnn.xTheta
  rw [Finset.sum_range]
  exact Finset.sum_congr rfl fun k _ => congrArg₂ (· * ·) (xTile_apply V c t r k) (thetaBlk_apply V c t k f)

/-- The scalings a point stores: `d` of its 256 rows. -/
theorem tile_scaling (c : Dev nD) (t : Fin cfg0.N) :
    k0_pay2 (F := Ideal) (hTile V c t) = fun i => Cert.Hgnn.dRs (hArr V c) (t.val * 256 + (i 0).val) := by
  funext i
  obtain ⟨r, u, rfl⟩ : ∃ (r : Fin 256) (u : Fin 1), i = ix2 r u := ⟨i 0, i 1, eq_ix2 i⟩
  exact (scaling_apply (hTile V c t) r u).trans (rowScaling_eq V c t r)

/-- The column-sum accumulator after tile `t`, when it held `A e` at column `e`: `A e` plus the tile's column sum. -/
theorem tile_colSums (c : Dev nD) (t : Fin cfg0.N) (acc : Vec Ideal S1x1x8192 .f32) (A : ℕ → EReal)
    (hacc : acc = fun i => A (i 2).val) :
    k0_pay5 (F := Ideal) (hTile V c t) acc
      = fun i => A (i 2).val + Cert.Hgnn.colTile (hArr V c) t.val (i 2).val := by
  subst hacc
  funext i
  obtain ⟨u, v, e, rfl⟩ : ∃ (u v : Fin 1) (e : Fin 8192), i = ix3 u v e := ⟨i 0, i 1, i 2, eq_ix3 i⟩
  refine (colSums_step (hTile V c t) _ u v e).trans ?_
  show A e.val + _ = A e.val + Cert.Hgnn.colTile (hArr V c) t.val e.val
  unfold Cert.Hgnn.colTile
  rw [Finset.sum_range]
  exact congrArg (A e.val + ·) (Finset.sum_congr rfl fun r _ => hTile_apply V c t r e)

/-- The product accumulator after tile `t`, when it held `A f e`: `A f e` plus the tile's product. -/
theorem tile_product (c : Dev nD) (t : Fin cfg0.N) (acc : Vec Ideal S1x64x8192 .f32) (A : ℕ → ℕ → EReal)
    (hacc : acc = fun i => A (i 1).val (i 2).val) :
    k0_pay1 (F := Ideal) (k0_pay6 (F := Ideal) (hTile V c t) (xTile V c t) (thetaBlk V c t) acc)
      = fun i => A (i 1).val (i 2).val
          + Cert.Hgnn.prodTile (hArr V c) (xArr V c) (thArr V c) t.val (i 1).val (i 2).val := by
  subst hacc
  funext i
  obtain ⟨u, f, e, rfl⟩ : ∃ (u : Fin 1) (f : Fin 64) (e : Fin 8192), i = ix3 u f e := ⟨i 0, i 1, i 2, eq_ix3 i⟩
  refine (product_step (hTile V c t) (xTile V c t) (thetaBlk V c t) _ u f e).trans ?_
  show A f.val e.val + _ = A f.val e.val + Cert.Hgnn.prodTile (hArr V c) (xArr V c) (thArr V c) t.val f.val e.val
  unfold Cert.Hgnn.prodTile
  rw [Finset.sum_range]
  exact congrArg (A f.val e.val + ·) (Finset.sum_congr rfl fun r _ =>
    congrArg₂ (· * ·) (congrArg₂ (· * ·) (rowScaling_eq V c t r) (xTheta_eq V c t r f)) (hTile_apply V c t r e))

end tiles

/-! ## The running sums

Tile `m` is tile `m % 32` of half `m / 32`. The first tile of a half starts the half's sums from zero; every other tile
adds to the sums of the tile before it, which belongs to the same half. -/

section running
variable (H : Cert.Hgnn.MatH) (X : Cert.Hgnn.MatX) (Θ : Cert.Hgnn.MatT)

theorem colAcc_first (m e : ℕ) (h0 : m % 32 = 0) :
    (0 : EReal) + Cert.Hgnn.colTile H m e = Cert.Hgnn.colAcc H (m / 32) (m % 32) e := by
  have hm : m / 32 * 32 + 0 = m := by omega
  unfold Cert.Hgnn.colAcc
  rw [h0, Finset.sum_range_succ, Finset.sum_range_zero, hm]

theorem colAcc_next (m e : ℕ) (h0 : ¬m % 32 = 0) :
    Cert.Hgnn.colAcc H ((m - 1) / 32) ((m - 1) % 32) e + Cert.Hgnn.colTile H m e
      = Cert.Hgnn.colAcc H (m / 32) (m % 32) e := by
  have h1 : (m - 1) / 32 = m / 32 := by omega
  have h2 : m % 32 = (m - 1) % 32 + 1 := by omega
  have h3 : m / 32 * 32 + ((m - 1) % 32 + 1) = m := by omega
  unfold Cert.Hgnn.colAcc
  rw [h1, h2, Finset.sum_range_succ _ ((m - 1) % 32 + 1), h3]

theorem prodAcc_first (m f e : ℕ) (h0 : m % 32 = 0) :
    (0 : EReal) + Cert.Hgnn.prodTile H X Θ m f e = Cert.Hgnn.prodAcc H X Θ (m / 32) (m % 32) f e := by
  have hm : m / 32 * 32 + 0 = m := by omega
  unfold Cert.Hgnn.prodAcc
  rw [h0, Finset.sum_range_succ, Finset.sum_range_zero, hm]

theorem prodAcc_next (m f e : ℕ) (h0 : ¬m % 32 = 0) :
    Cert.Hgnn.prodAcc H X Θ ((m - 1) / 32) ((m - 1) % 32) f e + Cert.Hgnn.prodTile H X Θ m f e
      = Cert.Hgnn.prodAcc H X Θ (m / 32) (m % 32) f e := by
  have h1 : (m - 1) / 32 = m / 32 := by omega
  have h2 : m % 32 = (m - 1) % 32 + 1 := by omega
  have h3 : m / 32 * 32 + ((m - 1) % 32 + 1) = m := by omega
  unfold Cert.Hgnn.prodAcc
  rw [h1, h2, Finset.sum_range_succ _ ((m - 1) % 32 + 1), h3]

end running

/-! ## What the staging buffers hold after every point

After the body at point `n`: the scalings of rows `256 n …`, and the column sums and the product over the tiles of half
`n / 32` up to tile `n % 32`. By induction on the point. -/

section invariant

/-- At the first tile of a half. -/
theorem first_tile (c : Dev nD) (t : Fin cfg0.N) (h0 : t.val % 32 = 0) :
    (outsAt0 V c t.val t.isLt).1 = (fun i => Cert.Hgnn.dRs (hArr V c) (t.val * 256 + (i 0).val))
    ∧ (outsAt0 V c t.val t.isLt).2.1 = (fun i => Cert.Hgnn.colAcc (hArr V c) (t.val / 32) (t.val % 32) (i 2).val)
    ∧ (outsAt0 V c t.val t.isLt).2.2 = (fun i => Cert.Hgnn.prodAcc (hArr V c) (xArr V c) (thArr V c) (t.val / 32) (t.val % 32) (i 1).val (i 2).val) := by
  rw [outsAt0_A V c t h0]
  dsimp only
  refine ⟨?_, ?_, ?_⟩
  · exact (scaling_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (hTile V c t) (xTile V c t) (thetaBlk V c t)).trans (tile_scaling V c t)
  · refine (colSums_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (hTile V c t) (xTile V c t) (thetaBlk V c t)).trans ?_
    refine (tile_colSums V c t (k0_pay3 (F := Ideal)) (fun _ => 0) (funext fun i => zeroCols_apply i)).trans ?_
    funext i
    exact colAcc_first (hArr V c) t.val (i 2).val h0
  · refine (product_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (hTile V c t) (xTile V c t) (thetaBlk V c t)).trans ?_
    refine (tile_product V c t (k0_pay4 (F := Ideal)) (fun _ _ => 0) (funext fun i => zeroProd_apply i)).trans ?_
    funext i
    exact prodAcc_first (hArr V c) (xArr V c) (thArr V c) t.val (i 1).val (i 2).val h0

/-- At any other tile, over what the tile before left in the two accumulators. -/
theorem later_tile (c : Dev nD) (t : Fin cfg0.N) (h0 : ¬t.val % 32 = 0)
    (ih4 : (outsAt0 V c (t.val - 1) (Nat.lt_of_le_of_lt (Nat.sub_le _ _) t.isLt)).2.1 = (fun i => Cert.Hgnn.colAcc (hArr V c) ((t.val - 1) / 32) ((t.val - 1) % 32) (i 2).val))
    (ih5 : (outsAt0 V c (t.val - 1) (Nat.lt_of_le_of_lt (Nat.sub_le _ _) t.isLt)).2.2 = (fun i => Cert.Hgnn.prodAcc (hArr V c) (xArr V c) (thArr V c) ((t.val - 1) / 32) ((t.val - 1) % 32) (i 1).val (i 2).val)) :
    (outsAt0 V c t.val t.isLt).1 = (fun i => Cert.Hgnn.dRs (hArr V c) (t.val * 256 + (i 0).val))
    ∧ (outsAt0 V c t.val t.isLt).2.1 = (fun i => Cert.Hgnn.colAcc (hArr V c) (t.val / 32) (t.val % 32) (i 2).val)
    ∧ (outsAt0 V c t.val t.isLt).2.2 = (fun i => Cert.Hgnn.prodAcc (hArr V c) (xArr V c) (thArr V c) (t.val / 32) (t.val % 32) (i 1).val (i 2).val) := by
  rw [outsAt0_B V c t h0]
  dsimp only
  refine ⟨?_, ?_, ?_⟩
  · exact (scaling_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (hTile V c t) (xTile V c t) (thetaBlk V c t) (outsAt0 V c (t.val - 1) (Nat.lt_of_le_of_lt (Nat.sub_le _ _) t.isLt)).2.1 (outsAt0 V c (t.val - 1) (Nat.lt_of_le_of_lt (Nat.sub_le _ _) t.isLt)).2.2).trans (tile_scaling V c t)
  · refine (colSums_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (hTile V c t) (xTile V c t) (thetaBlk V c t) (outsAt0 V c (t.val - 1) (Nat.lt_of_le_of_lt (Nat.sub_le _ _) t.isLt)).2.1 (outsAt0 V c (t.val - 1) (Nat.lt_of_le_of_lt (Nat.sub_le _ _) t.isLt)).2.2).trans ?_
    refine (tile_colSums V c t (outsAt0 V c (t.val - 1) (Nat.lt_of_le_of_lt (Nat.sub_le _ _) t.isLt)).2.1 (fun e => Cert.Hgnn.colAcc (hArr V c) ((t.val - 1) / 32) ((t.val - 1) % 32) e) ih4).trans ?_
    funext i
    exact colAcc_next (hArr V c) t.val (i 2).val h0
  · refine (product_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (hTile V c t) (xTile V c t) (thetaBlk V c t) (outsAt0 V c (t.val - 1) (Nat.lt_of_le_of_lt (Nat.sub_le _ _) t.isLt)).2.1 (outsAt0 V c (t.val - 1) (Nat.lt_of_le_of_lt (Nat.sub_le _ _) t.isLt)).2.2).trans ?_
    refine (tile_product V c t (outsAt0 V c (t.val - 1) (Nat.lt_of_le_of_lt (Nat.sub_le _ _) t.isLt)).2.2 (fun f e => Cert.Hgnn.prodAcc (hArr V c) (xArr V c) (thArr V c) ((t.val - 1) / 32) ((t.val - 1) % 32) f e) ih5).trans ?_
    funext i
    exact prodAcc_next (hArr V c) (xArr V c) (thArr V c) t.val (i 1).val (i 2).val h0

/-- After every point. -/
theorem outs_eq (c : Dev nD) : ∀ (n : ℕ) (h : n < cfg0.N),
    (outsAt0 V c n h).1 = (fun i => Cert.Hgnn.dRs (hArr V c) (n * 256 + (i 0).val))
    ∧ (outsAt0 V c n h).2.1 = (fun i => Cert.Hgnn.colAcc (hArr V c) (n / 32) (n % 32) (i 2).val)
    ∧ (outsAt0 V c n h).2.2 = (fun i => Cert.Hgnn.prodAcc (hArr V c) (xArr V c) (thArr V c) (n / 32) (n % 32) (i 1).val (i 2).val)
  | 0, h => first_tile V c ⟨0, h⟩ rfl
  | n + 1, h => by
    by_cases h0 : (n + 1) % 32 = 0
    · exact first_tile V c ⟨n + 1, h⟩ h0
    · have ih := outs_eq c n (Nat.lt_of_succ_lt h)
      exact later_tile V c ⟨n + 1, h⟩ h0 ih.2.1 ih.2.2

end invariant

/-! ## The result arrays after the pass

Every point writes back its 256 scalings, which tile the 16384 rows; the last tile of each half (the points `≡ 31` mod 32)
writes back the half's accumulators, then holding the sums over all 32 tiles of the half. -/

section results

/-- Point `t` writes back the scalings of rows `256 t …`. -/
theorem flushed_scaling (c : Dev nD) (t : Fin cfg0.N) (hf : (cfg0.win 3).flush t = true) :
    (dat0 V c).flushed 3 t = ((cfg0.win 3).blk t).view.read (Elt Ideal) (Cert.Hgnn.dCol (hArr V c)) := by
  show (cfg0.win 3).cut (grid0.coords t) ((dat0 V c).after 3 t) = _
  rw [after0_3, (outs_eq V c t.val t.isLt).1]
  obtain ⟨-, -, -, -, -, -, e0, -⟩ := block_index t
  funext y
  show Cert.Hgnn.dRs (hArr V c) (t.val * 256 + (y (0 : Fin 2)).val)
    = Cert.Hgnn.dRs (hArr V c) ((((cfg0.win 3).blk t).view.emb y) (0 : Fin 2)).val
  refine congrArg (Cert.Hgnn.dRs (hArr V c)) ?_
  show t.val * 256 + (y (0 : Fin 2)).val = win0_3.index t (0 : Fin 2) * 256 + 1 * (y (0 : Fin 2)).val
  rw [e0]; omega

/-- The last tile of a half writes back the half's column sums. -/
theorem flushed_colSums (c : Dev nD) (t : Fin cfg0.N) (hf : (cfg0.win 4).flush t = true) :
    (dat0 V c).flushed 4 t = ((cfg0.win 4).blk t).view.read (Elt Ideal) (Cert.Hgnn.colHalves (hArr V c)) := by
  have h31 : t.val % 32 = 31 := (flush0_4 t).mp hf
  show (cfg0.win 4).cut (grid0.coords t) ((dat0 V c).after 4 t) = _
  rw [after0_4, (outs_eq V c t.val t.isLt).2.1, h31]
  obtain ⟨-, -, -, -, -, -, -, -, e0, -, e2, -⟩ := block_index t
  funext y
  have hy0 : (y (0 : Fin 3)).val < 1 := (y (0 : Fin 3)).isLt
  show Cert.Hgnn.colAcc (hArr V c) (t.val / 32) 31 (y (2 : Fin 3)).val
    = Cert.Hgnn.colAcc (hArr V c) ((((cfg0.win 4).blk t).view.emb y) (0 : Fin 3)).val 31
        ((((cfg0.win 4).blk t).view.emb y) (2 : Fin 3)).val
  refine congrArg₂ (fun a b => Cert.Hgnn.colAcc (hArr V c) a 31 b) ?_ ?_
  · show t.val / 32 = win0_4.index t (0 : Fin 3) * 1 + 1 * (y (0 : Fin 3)).val
    rw [e0]; omega
  · show (y (2 : Fin 3)).val = win0_4.index t (2 : Fin 3) * 8192 + 1 * (y (2 : Fin 3)).val
    rw [e2]; omega

/-- … and the half's product. -/
theorem flushed_product (c : Dev nD) (t : Fin cfg0.N) (hf : (cfg0.win 5).flush t = true) :
    (dat0 V c).flushed 5 t
      = ((cfg0.win 5).blk t).view.read (Elt Ideal) (Cert.Hgnn.prodHalves (hArr V c) (xArr V c) (thArr V c)) := by
  have h31 : t.val % 32 = 31 := (flush0_5 t).mp hf
  show (cfg0.win 5).cut (grid0.coords t) ((dat0 V c).after 5 t) = _
  rw [after0_5, (outs_eq V c t.val t.isLt).2.2, h31]
  obtain ⟨-, -, -, -, -, -, -, -, -, -, -, e0, e1, e2⟩ := block_index t
  funext y
  have hy0 : (y (0 : Fin 3)).val < 1 := (y (0 : Fin 3)).isLt
  show Cert.Hgnn.prodAcc (hArr V c) (xArr V c) (thArr V c) (t.val / 32) 31 (y (1 : Fin 3)).val (y (2 : Fin 3)).val
    = Cert.Hgnn.prodAcc (hArr V c) (xArr V c) (thArr V c) ((((cfg0.win 5).blk t).view.emb y) (0 : Fin 3)).val 31
        ((((cfg0.win 5).blk t).view.emb y) (1 : Fin 3)).val ((((cfg0.win 5).blk t).view.emb y) (2 : Fin 3)).val
  have a0 : t.val / 32 = ((((cfg0.win 5).blk t).view.emb y) (0 : Fin 3)).val := by
    show t.val / 32 = win0_5.index t (0 : Fin 3) * 1 + 1 * (y (0 : Fin 3)).val
    rw [e0]; omega
  have a1 : (y (1 : Fin 3)).val = ((((cfg0.win 5).blk t).view.emb y) (1 : Fin 3)).val := by
    show (y (1 : Fin 3)).val = win0_5.index t (1 : Fin 3) * 64 + 1 * (y (1 : Fin 3)).val
    rw [e1]; omega
  have a2 : (y (2 : Fin 3)).val = ((((cfg0.win 5).blk t).view.emb y) (2 : Fin 3)).val := by
    show (y (2 : Fin 3)).val = win0_5.index t (2 : Fin 3) * 8192 + 1 * (y (2 : Fin 3)).val
    rw [e2]; omega
  rw [a0, a1, a2]

end results

/-- After pass one the first result array holds the vertex scalings of the incidence matrix the pass was entered with. -/
theorem dCol_final (c : Dev nD) : (dat0 (F := Ideal) V c).arrAt 3 cfg0.N = Cert.Hgnn.dCol (V c main_arg1) :=
  (dat0 V c).arrAt_eq_of_cover 3 (Cert.Hgnn.dCol (hArr V c)) (flushed_scaling V c) fun i => by
    have hi0 : (i (0 : Fin 2)).val < 16384 := (i (0 : Fin 2)).isLt
    have hi1 : (i (1 : Fin 2)).val < 1 := (i (1 : Fin 2)).isLt
    have hN : cfg0.N = 64 := N_0
    obtain ⟨t, ht⟩ : ∃ t : Fin cfg0.N, t.val = (i (0 : Fin 2)).val / 256 :=
      ⟨⟨(i (0 : Fin 2)).val / 256, by rw [hN]; omega⟩, rfl⟩
    obtain ⟨-, -, -, -, -, -, e0, e1, -⟩ := block_index t
    refine ⟨t, flush0_3 t, ?_⟩
    show i ∈ ((View.whole main_v0_0).slice (win0_3.rect t)).set
    rw [View.set_slice_whole, Rect.mem_set_unit]
    intro a
    match a with
    | ⟨0, _⟩ =>
      show win0_3.index t (0 : Fin 2) * 256 ≤ (i (0 : Fin 2)).val
        ∧ (i (0 : Fin 2)).val < win0_3.index t (0 : Fin 2) * 256 + 256
      rw [e0]; omega
    | ⟨1, _⟩ =>
      show win0_3.index t (1 : Fin 2) * 1 ≤ (i (1 : Fin 2)).val
        ∧ (i (1 : Fin 2)).val < win0_3.index t (1 : Fin 2) * 1 + 1
      rw [e1]; omega

/-- … the second the two halves' column sums … -/
theorem colHalves_final (c : Dev nD) : (dat0 (F := Ideal) V c).arrAt 4 cfg0.N = Cert.Hgnn.colHalves (V c main_arg1) :=
  (dat0 V c).arrAt_eq_of_cover 4 (Cert.Hgnn.colHalves (hArr V c)) (flushed_colSums V c) fun i => by
    have hi0 : (i (0 : Fin 3)).val < 2 := (i (0 : Fin 3)).isLt
    have hi1 : (i (1 : Fin 3)).val < 1 := (i (1 : Fin 3)).isLt
    have hi2 : (i (2 : Fin 3)).val < 8192 := (i (2 : Fin 3)).isLt
    have hN : cfg0.N = 64 := N_0
    obtain ⟨t, ht⟩ : ∃ t : Fin cfg0.N, t.val = (i (0 : Fin 3)).val * 32 + 31 :=
      ⟨⟨(i (0 : Fin 3)).val * 32 + 31, by rw [hN]; omega⟩, rfl⟩
    obtain ⟨-, -, -, -, -, -, -, -, e0, e1, e2, -⟩ := block_index t
    refine ⟨t, (flush0_4 t).mpr (by omega), ?_⟩
    show i ∈ ((View.whole main_v0_1).slice (win0_4.rect t)).set
    rw [View.set_slice_whole, Rect.mem_set_unit]
    intro a
    match a with
    | ⟨0, _⟩ =>
      show win0_4.index t (0 : Fin 3) * 1 ≤ (i (0 : Fin 3)).val
        ∧ (i (0 : Fin 3)).val < win0_4.index t (0 : Fin 3) * 1 + 1
      rw [e0]; omega
    | ⟨1, _⟩ =>
      show win0_4.index t (1 : Fin 3) * 1 ≤ (i (1 : Fin 3)).val
        ∧ (i (1 : Fin 3)).val < win0_4.index t (1 : Fin 3) * 1 + 1
      rw [e1]; omega
    | ⟨2, _⟩ =>
      show win0_4.index t (2 : Fin 3) * 8192 ≤ (i (2 : Fin 3)).val
        ∧ (i (2 : Fin 3)).val < win0_4.index t (2 : Fin 3) * 8192 + 8192
      rw [e2]; omega

/-- … and the third the two halves' products. -/
theorem prodHalves_final (c : Dev nD) :
    (dat0 (F := Ideal) V c).arrAt 5 cfg0.N = Cert.Hgnn.prodHalves (V c main_arg1) (V c main_arg0) (V c main_arg3) :=
  (dat0 V c).arrAt_eq_of_cover 5 (Cert.Hgnn.prodHalves (hArr V c) (xArr V c) (thArr V c)) (flushed_product V c) fun i => by
    have hi0 : (i (0 : Fin 3)).val < 2 := (i (0 : Fin 3)).isLt
    have hi1 : (i (1 : Fin 3)).val < 64 := (i (1 : Fin 3)).isLt
    have hi2 : (i (2 : Fin 3)).val < 8192 := (i (2 : Fin 3)).isLt
    have hN : cfg0.N = 64 := N_0
    obtain ⟨t, ht⟩ : ∃ t : Fin cfg0.N, t.val = (i (0 : Fin 3)).val * 32 + 31 :=
      ⟨⟨(i (0 : Fin 3)).val * 32 + 31, by rw [hN]; omega⟩, rfl⟩
    obtain ⟨-, -, -, -, -, -, -, -, -, -, -, e0, e1, e2⟩ := block_index t
    refine ⟨t, (flush0_5 t).mpr (by omega), ?_⟩
    show i ∈ ((View.whole main_v0_2).slice (win0_5.rect t)).set
    rw [View.set_slice_whole, Rect.mem_set_unit]
    intro a
    match a with
    | ⟨0, _⟩ =>
      show win0_5.index t (0 : Fin 3) * 1 ≤ (i (0 : Fin 3)).val
        ∧ (i (0 : Fin 3)).val < win0_5.index t (0 : Fin 3) * 1 + 1
      rw [e0]; omega
    | ⟨1, _⟩ =>
      show win0_5.index t (1 : Fin 3) * 64 ≤ (i (1 : Fin 3)).val
        ∧ (i (1 : Fin 3)).val < win0_5.index t (1 : Fin 3) * 64 + 64
      rw [e1]; omega
    | ⟨2, _⟩ =>
      show win0_5.index t (2 : Fin 3) * 8192 ≤ (i (2 : Fin 3)).val
        ∧ (i (2 : Fin 3)).val < win0_5.index t (2 : Fin 3) * 8192 + 8192
      rw [e2]; omega

end Cert.KernelIdeal.PassOne

end
-- ==== Proof.PassTwo.lean ====
/-
  Pass two of the tiled hypergraph convolution: its result array.

  Grid point 4·i + j reads row block i (1024 rows) and column block j (2048 columns) of `H`, the matching 2048 rows of
  `y`, the 1024 scalings `d` of the row block and the bias row. It resets the result block at j = 0, adds the block product
  `Σ_e H n e · y e f` at every j, and at j = 3 scales by `d n` and adds `b f`. So after point 4·i + j the block holds the
  sum over the first j + 1 column blocks (induction on the point), the block written back at j = 3 is the finished value,
  and the sixteen blocks written back tile the array.
-/
import proofs.«410302_j87471303950814_3_alg».proof.Proof.Gen.KernelIdeal.Frame
import proofs.«410302_j87471303950814_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.PassTwo

open Cert.KernelIdeal Cert.KernelIdeal.Gen

variable (V : (c : Dev nD) → (b : Ref sig .tc) → Buf (Elt Ideal) ((c : Thread nD τ).loc b))

/-! ## What one grid point leaves in the result block, as a function of the blocks it reads -/

section Pieces
variable {F : FTy → Type} [FloatOps F]

theorem zeroOffsets : (![0, 0] : Fin 2 → Nat) = fun _ => 0 := funext fun a => by fin_cases a <;> rfl

/-- At the first column block the result block is reset and then receives the first product: the zero block plus
    `H`-block times `y`-block. -/
theorem firstBlock (c : Dev nD) (i : grid1.Coords)
    (a2 : Memref sig .tc .vmem S1024x2048 .f32) (h2 : a2.IsWhole) (a3 : Memref sig .tc .vmem S2048x64 .f32) (h3 : a3.IsWhole)
    (a4 : Memref sig .tc .vmem S1024x1 .f32) (h4 : a4.IsWhole) (a5 : Memref sig .tc .vmem S1x64 .f32) (h5 : a5.IsWhole)
    (a6 : Memref sig .tc .vmem S1024x64 .f32) (h6 : a6.IsWhole) (hc0 : cond1_0 i) (hc1 : ¬cond1_1 i)
    (x0 : Vec F S1024x2048 .f32) (x1 : Vec F S2048x64 .f32) (x2 : Vec F S1024x1 .f32) (x3 : Vec F S1x64 .f32) :
    out1_A_4 c i a2 h2 a3 h3 a4 h4 a5 h5 a6 h6 hc0 hc1 x0 x1 x2 x3 = k1_pay2 x0 x1 (k1_pay1 (F := F)) := by
  unfold out1_A_4
  rw [View.read_writes_eq_canon _ _ _ (cover1_A_4 c i a2 h2 a3 h3 a4 h4 a5 h5 a6 h6 hc0 hc1 x0 x1 x2 x3)]
  unfold kernelRun1_A
  dsimp only
  sl_unfold_words
  rw [View.canon_cons_unit_zero (S := S1024x64) zeroOffsets, View.readCov_unit_zero (S := S1024x64) _ zeroOffsets]
  simp only [View.readAt_eq_ld, h2.read_unread, h3.read_unread, View.ld_unit_zero (S := S1024x2048) zeroOffsets,
    View.ld_unit_zero (S := S2048x64) zeroOffsets]

/-- At a middle column block the running contents receive one more product. -/
theorem middleBlock (c : Dev nD) (i : grid1.Coords)
    (a2 : Memref sig .tc .vmem S1024x2048 .f32) (h2 : a2.IsWhole) (a3 : Memref sig .tc .vmem S2048x64 .f32) (h3 : a3.IsWhole)
    (a4 : Memref sig .tc .vmem S1024x1 .f32) (h4 : a4.IsWhole) (a5 : Memref sig .tc .vmem S1x64 .f32) (h5 : a5.IsWhole)
    (a6 : Memref sig .tc .vmem S1024x64 .f32) (h6 : a6.IsWhole) (hc0 : ¬cond1_0 i) (hc1 : ¬cond1_1 i)
    (x0 : Vec F S1024x2048 .f32) (x1 : Vec F S2048x64 .f32) (x2 : Vec F S1024x1 .f32) (x3 : Vec F S1x64 .f32)
    (xo : Vec F S1024x64 .f32) :
    out1_B_4 c i a2 h2 a3 h3 a4 h4 a5 h5 a6 h6 hc0 hc1 x0 x1 x2 x3 xo = k1_pay2 x0 x1 xo := by
  unfold out1_B_4
  rw [View.read_writes_eq_canon _ _ _ (cover1_B_4 c i a2 h2 a3 h3 a4 h4 a5 h5 a6 h6 hc0 hc1 x0 x1 x2 x3 xo)]
  unfold kernelRun1_B
  dsimp only
  sl_unfold_words
  rw [View.canon_unit_zero zeroOffsets]
  simp only [View.readAt_eq_ld, h2.read_unread, h3.read_unread, h6.read_unread,
    View.ld_unit_zero (S := S1024x2048) zeroOffsets, View.ld_unit_zero (S := S2048x64) zeroOffsets,
    View.ld_unit_zero (S := S1024x64) zeroOffsets]

/-- At the last column block the running contents receive the last product and are then scaled by the `d` column and
    shifted by the bias row. -/
theorem lastBlock (c : Dev nD) (i : grid1.Coords)
    (a2 : Memref sig .tc .vmem S1024x2048 .f32) (h2 : a2.IsWhole) (a3 : Memref sig .tc .vmem S2048x64 .f32) (h3 : a3.IsWhole)
    (a4 : Memref sig .tc .vmem S1024x1 .f32) (h4 : a4.IsWhole) (a5 : Memref sig .tc .vmem S1x64 .f32) (h5 : a5.IsWhole)
    (a6 : Memref sig .tc .vmem S1024x64 .f32) (h6 : a6.IsWhole) (hc0 : ¬cond1_0 i) (hc1 : cond1_1 i)
    (x0 : Vec F S1024x2048 .f32) (x1 : Vec F S2048x64 .f32) (x2 : Vec F S1024x1 .f32) (x3 : Vec F S1x64 .f32)
    (xo : Vec F S1024x64 .f32) :
    out1_C_4 c i a2 h2 a3 h3 a4 h4 a5 h5 a6 h6 hc0 hc1 x0 x1 x2 x3 xo = k1_pay3 x2 (k1_pay2 x0 x1 xo) x3 := by
  unfold out1_C_4
  rw [View.read_writes_eq_canon _ _ _ (cover1_C_4 c i a2 h2 a3 h3 a4 h4 a5 h5 a6 h6 hc0 hc1 x0 x1 x2 x3 xo)]
  unfold kernelRun1_C
  dsimp only
  sl_unfold_words
  rw [View.canon_cons_unit_zero (S := S1024x64) zeroOffsets, View.readCov_unit_zero (S := S1024x64) _ zeroOffsets]
  simp only [View.readAt_eq_ld, h2.read_unread, h3.read_unread, h4.read_unread, h5.read_unread, h6.read_unread,
    View.ld_unit_zero (S := S1024x2048) zeroOffsets, View.ld_unit_zero (S := S2048x64) zeroOffsets,
    View.ld_unit_zero (S := S1024x64) zeroOffsets, View.ld_unit_zero (S := S1024x1) zeroOffsets,
    View.ld_unit_zero (S := S1x64) zeroOffsets]

end Pieces

/-! ## The three payloads read at an entry, on the extended reals -/

section Payloads

/-- A column `[a, 1]` broadcast to `[a, b]` reads, at `(p, q)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The reset block is zero at every entry. -/
theorem reset_apply (r : Fin 1024) (f : Fin 64) : (k1_pay1 (F := Ideal)) (ix2 r f) = 0 := by
  unfold k1_pay1
  exact Ideal.ofBits_zero_f32

theorem lhsRow (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide),
    dif_pos (show (0 : Fin S1024x2048.rank) ∈ dot_S1024x2048_S2048x64_S1024x64_1_0_0_1_n_n.lhsNonContracting by decide)]
  rfl
theorem lhsCol (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem rhsRow (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem rhsCol (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide),
    dif_pos (show (1 : Fin S2048x64.rank) ∈ dot_S1024x2048_S2048x64_S1024x64_1_0_0_1_n_n.rhsNonContracting by decide)]
  rfl

/-- The block product into the zero accumulator, at `(r, f)`: `Σ_e A r e · B e f` over the 2048 columns of the block. -/
theorem blockProduct_apply {φ₁ φ₂ : FTy} (A : FVec Ideal S1024x2048 φ₁) (B : FVec Ideal S2048x64 φ₂) (r : Fin 1024) (f : Fin 64) :
    matmul dot_S1024x2048_S2048x64_S1024x64_1_0_0_1_n_n none A B (constant S1024x64 .f32 0x00000000#32) (ix2 r f)
      = ∑ e : Fin 2048, A (ix2 r e) * B (ix2 e f) := by
  simp only [matmul]
  rw [Ideal.matmul_constant_zero_apply,
    ← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 r f)
      ((contrEquiv1 dot_S1024x2048_S2048x64_S1024x64_1_0_0_1_n_n 2048 rfl rfl).symm k) = ix2 r k :=
    funext fun a => Fin.ext (by
      match a with
      | ⟨0, _⟩ => exact lhsRow _ _
      | ⟨1, _⟩ => exact (lhsCol _ _).trans hk)
  have er : dot_S1024x2048_S2048x64_S1024x64_1_0_0_1_n_n.rhsIdx (ix2 r f)
      ((contrEquiv1 dot_S1024x2048_S2048x64_S1024x64_1_0_0_1_n_n 2048 rfl rfl).symm k) = ix2 k f :=
    funext fun a => Fin.ext (by
      match a with
      | ⟨0, _⟩ => exact (rhsRow _ _).trans hk
      | ⟨1, _⟩ => exact rhsCol _ _)
  rw [el, er]

/-- The accumulation step at `(r, f)`: the running entry plus the block's `Σ_e H r e · y e f`. -/
theorem accumulate_apply (x0 : Vec Ideal S1024x2048 .f32) (x1 : Vec Ideal S2048x64 .f32) (xo : Vec Ideal S1024x64 .f32)
    (r : Fin 1024) (f : Fin 64) :
    k1_pay2 x0 x1 xo (ix2 r f) = xo (ix2 r f) + ∑ e : Fin 2048, x0 (ix2 r e) * x1 (ix2 e f) := by
  unfold k1_pay2
  refine (addf_apply _ _ (ix2 r f)).trans ?_
  refine congrArg₂ (· + ·) (congrFun (shapeCast_self xo shapeCasts_S1024x64_S1024x64) (ix2 r f)) ?_
  refine (blockProduct_apply _ _ r f).trans ?_
  refine Finset.sum_congr rfl fun e _ => ?_
  exact congrArg (x0 (ix2 r e) * ·) (congrFun (shapeCast_self x1 shapeCasts_S2048x64_S2048x64) (ix2 e f))

/-- The finishing step at `(r, f)`: the `d` column at `r` times the accumulated entry, plus the bias row at `f`. -/
theorem finish_apply (x2 : Vec Ideal S1024x1 .f32) (acc : Vec Ideal S1024x64 .f32) (x3 : Vec Ideal S1x64 .f32)
    (r : Fin 1024) (f : Fin 64) :
    k1_pay3 x2 acc x3 (ix2 r f) = x2 (ix2 r (0 : Fin 1)) * acc (ix2 r f) + x3 (ix2 (0 : Fin 1) f) := by
  unfold k1_pay3
  refine (addf_apply _ _ (ix2 r f)).trans ?_
  refine congrArg₂ (· + ·) ((mulf_apply _ _ (ix2 r f)).trans (congrArg₂ (· * ·) ?_ ?_)) ?_
  · refine (broadcastTo_a1_ab_apply _ broadcasts_S1024x1_S1024x64 r f).trans ?_
    exact congrFun (shapeCast_self x2 shapeCasts_S1024x1_S1024x1) _
  · exact congrFun (shapeCast_self acc shapeCasts_S1024x64_S1024x64) _
  · refine (broadcastTo_1b_ab_apply _ broadcasts_S1x64_S1024x64 r f).trans ?_
    exact congrFun (shapeCast_self x3 shapeCasts_S1x64_S1x64) _

end Payloads

/-! ## One accumulation step and the finishing step, entry by entry, against the specification -/

section Steps
open Cert.Hgnn
variable (H : MatH) (Y : MatY) (D : ColD) (B : RowB)

/-- What the result block of row block `q` holds after column block `j`: the partial sums `Σ_{k ≤ j} Σ_e H n e · y e f`
    of its rows, and after the last column block the finished value `d n · (…) + b f`. -/
def blockAfter (q j : ℕ) : Vec Ideal S1024x64 .f32 := fun i =>
  if j = 3 then
    ent D (q * 1024 + (i 0).val) 0 * hyAcc H Y (q * 1024 + (i 0).val) 3 (i 1).val + ent B 0 (i 1).val
  else hyAcc H Y (q * 1024 + (i 0).val) j (i 1).val

theorem blockAfter_running (q j : ℕ) (hj : j ≠ 3) (r : Fin 1024) (f : Fin 64) :
    blockAfter H Y D B q j (ix2 r f) = hyAcc H Y (q * 1024 + r.val) j f.val := if_neg hj

theorem blockAfter_finished (q : ℕ) (i : S1024x64.Idx) :
    blockAfter H Y D B q 3 i
      = ent D (q * 1024 + (i 0).val) 0 * hyAcc H Y (q * 1024 + (i 0).val) 3 (i 1).val + ent B 0 (i 1).val := if_pos rfl

theorem hyAcc_zero (n f : ℕ) : hyAcc H Y n 0 f = hyBlock H Y n 0 f := by
  unfold hyAcc
  rw [Finset.sum_range_succ, Finset.sum_range_zero, zero_add]

theorem hyAcc_succ (n j f : ℕ) : hyAcc H Y n (j + 1) f = hyAcc H Y n j f + hyBlock H Y n (j + 1) f := by
  unfold hyAcc
  rw [Finset.sum_range_succ]

/-- The sum over the 2048 columns of a staged block is the specification's block term, once the two blocks' entries
    are known to be the arrays' entries of row block `q` and column block `j`. -/
theorem blockSum_eq (X0 : Vec Ideal S1024x2048 .f32) (X1 : Vec Ideal S2048x64 .f32) (q j : ℕ)
    (hX0 : ∀ (r : Fin 1024) (e : Fin 2048), X0 (ix2 r e) = ent H (q * 1024 + r.val) (j * 2048 + e.val))
    (hX1 : ∀ (e : Fin 2048) (f : Fin 64), X1 (ix2 e f) = ent Y (j * 2048 + e.val) f.val)
    (r : Fin 1024) (f : Fin 64) :
    ∑ e : Fin 2048, X0 (ix2 r e) * X1 (ix2 e f) = hyBlock H Y (q * 1024 + r.val) j f.val := by
  unfold hyBlock
  rw [Finset.sum_range]
  exact Finset.sum_congr rfl fun e _ => by rw [hX0, hX1]

/-- Column block 0: the reset block plus the first product is the first partial sum. -/
theorem step_first (X0 : Vec Ideal S1024x2048 .f32) (X1 : Vec Ideal S2048x64 .f32) (q : ℕ)
    (hX0 : ∀ (r : Fin 1024) (e : Fin 2048), X0 (ix2 r e) = ent H (q * 1024 + r.val) (0 * 2048 + e.val))
    (hX1 : ∀ (e : Fin 2048) (f : Fin 64), X1 (ix2 e f) = ent Y (0 * 2048 + e.val) f.val) :
    k1_pay2 X0 X1 (k1_pay1 (F := Ideal)) = blockAfter H Y D B q 0 := by
  funext i
  obtain ⟨r, f, rfl⟩ : ∃ (r : Fin 1024) (f : Fin 64), i = ix2 r f := ⟨i 0, i 1, eq_ix2 i⟩
  rw [accumulate_apply, reset_apply, zero_add, blockSum_eq H Y X0 X1 q 0 hX0 hX1,
    blockAfter_running H Y D B q 0 (by decide), hyAcc_zero]

/-- A middle column block: the partial sum through `j` plus the product of block `j + 1` is the partial sum through `j + 1`. -/
theorem step_middle (X0 : Vec Ideal S1024x2048 .f32) (X1 : Vec Ideal S2048x64 .f32) (q j : ℕ) (hj : j + 1 < 3)
    (hX0 : ∀ (r : Fin 1024) (e : Fin 2048), X0 (ix2 r e) = ent H (q * 1024 + r.val) ((j + 1) * 2048 + e.val))
    (hX1 : ∀ (e : Fin 2048) (f : Fin 64), X1 (ix2 e f) = ent Y ((j + 1) * 2048 + e.val) f.val) :
    k1_pay2 X0 X1 (blockAfter H Y D B q j) = blockAfter H Y D B q (j + 1) := by
  funext i
  obtain ⟨r, f, rfl⟩ : ∃ (r : Fin 1024) (f : Fin 64), i = ix2 r f := ⟨i 0, i 1, eq_ix2 i⟩
  rw [accumulate_apply, blockSum_eq H Y X0 X1 q (j + 1) hX0 hX1, blockAfter_running H Y D B q j (by omega),
    blockAfter_running H Y D B q (j + 1) (by omega), hyAcc_succ]

/-- The last column block: the partial sum through block 2 plus the product of block 3, scaled by `d` and shifted by the
    bias, is the finished value. -/
theorem step_last (X0 : Vec Ideal S1024x2048 .f32) (X1 : Vec Ideal S2048x64 .f32) (X2 : Vec Ideal S1024x1 .f32)
    (X3 : Vec Ideal S1x64 .f32) (q : ℕ)
    (hX0 : ∀ (r : Fin 1024) (e : Fin 2048), X0 (ix2 r e) = ent H (q * 1024 + r.val) (3 * 2048 + e.val))
    (hX1 : ∀ (e : Fin 2048) (f : Fin 64), X1 (ix2 e f) = ent Y (3 * 2048 + e.val) f.val)
    (hX2 : ∀ r : Fin 1024, X2 (ix2 r (0 : Fin 1)) = ent D (q * 1024 + r.val) 0)
    (hX3 : ∀ f : Fin 64, X3 (ix2 (0 : Fin 1) f) = ent B 0 f.val) :
    k1_pay3 X2 (k1_pay2 X0 X1 (blockAfter H Y D B q 2)) X3 = blockAfter H Y D B q 3 := by
  funext i
  obtain ⟨r, f, rfl⟩ : ∃ (r : Fin 1024) (f : Fin 64), i = ix2 r f := ⟨i 0, i 1, eq_ix2 i⟩
  rw [finish_apply, accumulate_apply, blockSum_eq H Y X0 X1 q 3 hX0 hX1, blockAfter_running H Y D B q 2 (by decide),
    hX2, hX3, blockAfter_finished, hyAcc_succ H Y _ 2]

end Steps

/-! ## A staged block's entry is an entry of its array -/

section BlockReads
open Cert.Hgnn

/-- The block indices at each of the 64 points `t = 4·i + j`: the `H` block sits at `(i, j)`, the `y` block at `(j, 0)`,
    the `d` block at `(i, 0)`, the bias at `(0, 0)`, the result block at `(i, 0)`. -/
theorem blockIndices : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0
    ∧ win1_3.index t (0 : Fin 2) = 0 ∧ win1_3.index t (1 : Fin 2) = 0
    ∧ win1_4.index t (0 : Fin 2) = t.val / 4 ∧ win1_4.index t (1 : Fin 2) = 0 :=
  (by decide +kernel : ∀ t : Fin grid1.N, _)

/-- The four arrays pass two reads, and the blocks of them staged at point `t`, at their literal types. -/
abbrev hArr (c : Dev nD) : MatH := V c main_arg1
abbrev yArr (c : Dev nD) : MatY := V c main_v10
abbrev dArr (c : Dev nD) : ColD := V c main_v0_0
abbrev bArr (c : Dev nD) : RowB := V c main_v11
abbrev hBlock (c : Dev nD) (t : Fin cfg1.N) : Vec Ideal S1024x2048 .f32 := iblk1 V c 0 t
abbrev yBlock (c : Dev nD) (t : Fin cfg1.N) : Vec Ideal S2048x64 .f32 := iblk1 V c 1 t
abbrev dBlock (c : Dev nD) (t : Fin cfg1.N) : Vec Ideal S1024x1 .f32 := iblk1 V c 2 t
abbrev bBlock (c : Dev nD) (t : Fin cfg1.N) : Vec Ideal S1x64 .f32 := iblk1 V c 3 t

theorem hBlock_apply (c : Dev nD) (t : Fin cfg1.N) (q j : ℕ) (hq : t.val / 4 = q) (hj : t.val % 4 = j)
    (r : Fin 1024) (e : Fin 2048) :
    hBlock V c t (ix2 r e) = ent (hArr V c) (q * 1024 + r.val) (j * 2048 + e.val) := by
  have hN : t.val < 64 := lt_of_lt_of_eq t.isLt (show cfg1.N = 64 from N_1)
  obtain ⟨i0, i1, -⟩ := blockIndices t
  subst hq hj
  have hr := r.isLt
  have he := e.isLt
  rw [ent_of_lt _ (by omega) (by omega)]
  show V c main_arg1 (((cfg1.win 0).blk t).view.emb (ix2 r e)) = V c main_arg1 _
  refine congrArg (V c main_arg1) (funext fun a => Fin.ext ?_)
  match a with
  | ⟨0, _⟩ => show win1_0.index t (0 : Fin 2) * 1024 + 1 * r.val = t.val / 4 * 1024 + r.val; rw [i0]; omega
  | ⟨1, _⟩ => show win1_0.index t (1 : Fin 2) * 2048 + 1 * e.val = t.val % 4 * 2048 + e.val; rw [i1]; omega

theorem yBlock_apply (c : Dev nD) (t : Fin cfg1.N) (j : ℕ) (hj : t.val % 4 = j) (e : Fin 2048) (f : Fin 64) :
    yBlock V c t (ix2 e f) = ent (yArr V c) (j * 2048 + e.val) f.val := by
  have hN : t.val < 64 := lt_of_lt_of_eq t.isLt (show cfg1.N = 64 from N_1)
  obtain ⟨-, -, i0, i1, -⟩ := blockIndices t
  subst hj
  have he := e.isLt
  have hf := f.isLt
  rw [ent_of_lt _ (by omega) (by omega)]
  show V c main_v10 (((cfg1.win 1).blk t).view.emb (ix2 e f)) = V c main_v10 _
  refine congrArg (V c main_v10) (funext fun a => Fin.ext ?_)
  match a with
  | ⟨0, _⟩ => show win1_1.index t (0 : Fin 2) * 2048 + 1 * e.val = t.val % 4 * 2048 + e.val; rw [i0]; omega
  | ⟨1, _⟩ => show win1_1.index t (1 : Fin 2) * 64 + 1 * f.val = f.val; rw [i1]; omega

theorem dBlock_apply (c : Dev nD) (t : Fin cfg1.N) (q : ℕ) (hq : t.val / 4 = q) (r : Fin 1024) :
    dBlock V c t (ix2 r (0 : Fin 1)) = ent (dArr V c) (q * 1024 + r.val) 0 := by
  have hN : t.val < 64 := lt_of_lt_of_eq t.isLt (show cfg1.N = 64 from N_1)
  obtain ⟨-, -, -, -, i0, i1, -⟩ := blockIndices t
  subst hq
  have hr := r.isLt
  rw [ent_of_lt _ (by omega) (by omega)]
  show V c main_v0_0 (((cfg1.win 2).blk t).view.emb (ix2 r (0 : Fin 1))) = V c main_v0_0 _
  refine congrArg (V c main_v0_0) (funext fun a => Fin.ext ?_)
  match a with
  | ⟨0, _⟩ => show win1_2.index t (0 : Fin 2) * 1024 + 1 * r.val = t.val / 4 * 1024 + r.val; rw [i0]; omega
  | ⟨1, _⟩ => show win1_2.index t (1 : Fin 2) * 1 + 1 * 0 = 0; rw [i1]

theorem bBlock_apply (c : Dev nD) (t : Fin cfg1.N) (f : Fin 64) :
    bBlock V c t (ix2 (0 : Fin 1) f) = ent (bArr V c) 0 f.val := by
  obtain ⟨-, -, -, -, -, -, i0, i1, -⟩ := blockIndices t
  have hf := f.isLt
  rw [ent_of_lt _ (by omega) (by omega)]
  show V c main_v11 (((cfg1.win 3).blk t).view.emb (ix2 (0 : Fin 1) f)) = V c main_v11 _
  refine congrArg (V c main_v11) (funext fun a => Fin.ext ?_)
  match a with
  | ⟨0, _⟩ => show win1_3.index t (0 : Fin 2) * 1 + 1 * 0 = 0; rw [i0]
  | ⟨1, _⟩ => show win1_3.index t (1 : Fin 2) * 64 + 1 * f.val = f.val; rw [i1]; omega

end BlockReads

/-! ## The result block's staging buffer after every point -/

section Invariant
open Cert.Hgnn

/-- At a point of column block 0 the staging buffer holds the first partial sum of its row block. -/
theorem at_first (c : Dev nD) (t : Fin cfg1.N) (h0 : t.val % 4 = 0) :
    outsAt1 V c t.val t.isLt = blockAfter (hArr V c) (yArr V c) (dArr V c) (bArr V c) (t.val / 4) 0 := by
  have h1 : ¬t.val % 4 = 3 := by omega
  refine (outsAt1_A V c t h0 h1).trans ?_
  refine (firstBlock (F := Ideal) c (grid1.coords t) (ms1_0 t) (hs1_0 t) (ms1_1 t) (hs1_1 t) (ms1_2 t) (hs1_2 t)
    (ms1_3 t) (hs1_3 t) (ms1_4 t) (hs1_4 t) ((hcond1_0 t).mpr h0) (fun h => h1 ((hcond1_1 t).mp h))
    (hBlock V c t) (yBlock V c t) (dBlock V c t) (bBlock V c t)).trans ?_
  exact step_first (hArr V c) (yArr V c) (dArr V c) (bArr V c) (hBlock V c t) (yBlock V c t) (t.val / 4)
    (fun r e => hBlock_apply V c t (t.val / 4) 0 rfl h0 r e) (fun e f => yBlock_apply V c t 0 h0 e f)

/-- At a point of column block `j + 1 < 3`, over the partial sum through `j`, it holds the partial sum through `j + 1`. -/
theorem at_middle (c : Dev nD) (t : Fin cfg1.N) (j : ℕ) (hj : t.val % 4 = j + 1) (hj3 : j + 1 < 3)
    (ih : ∀ hlt, outsAt1 V c (t.val - 1) hlt
      = blockAfter (hArr V c) (yArr V c) (dArr V c) (bArr V c) (t.val / 4) j) :
    outsAt1 V c t.val t.isLt = blockAfter (hArr V c) (yArr V c) (dArr V c) (bArr V c) (t.val / 4) (j + 1) := by
  have h0 : ¬t.val % 4 = 0 := by omega
  have h1 : ¬t.val % 4 = 3 := by omega
  refine (outsAt1_B V c t h0 h1).trans ?_
  rw [ih _]
  refine (middleBlock (F := Ideal) c (grid1.coords t) (ms1_0 t) (hs1_0 t) (ms1_1 t) (hs1_1 t) (ms1_2 t) (hs1_2 t)
    (ms1_3 t) (hs1_3 t) (ms1_4 t) (hs1_4 t) (fun h => h0 ((hcond1_0 t).mp h)) (fun h => h1 ((hcond1_1 t).mp h))
    (hBlock V c t) (yBlock V c t) (dBlock V c t) (bBlock V c t)
    (blockAfter (hArr V c) (yArr V c) (dArr V c) (bArr V c) (t.val / 4) j)).trans ?_
  exact step_middle (hArr V c) (yArr V c) (dArr V c) (bArr V c) (hBlock V c t) (yBlock V c t) (t.val / 4) j hj3
    (fun r e => hBlock_apply V c t (t.val / 4) (j + 1) rfl hj r e) (fun e f => yBlock_apply V c t (j + 1) hj e f)

/-- At a point of column block 3, over the partial sum through block 2, it holds the finished value. -/
theorem at_last (c : Dev nD) (t : Fin cfg1.N) (h1 : t.val % 4 = 3)
    (ih : ∀ hlt, outsAt1 V c (t.val - 1) hlt
      = blockAfter (hArr V c) (yArr V c) (dArr V c) (bArr V c) (t.val / 4) 2) :
    outsAt1 V c t.val t.isLt = blockAfter (hArr V c) (yArr V c) (dArr V c) (bArr V c) (t.val / 4) 3 := by
  have h0 : ¬t.val % 4 = 0 := by omega
  refine (outsAt1_C V c t h0 h1).trans ?_
  rw [ih _]
  refine (lastBlock (F := Ideal) c (grid1.coords t) (ms1_0 t) (hs1_0 t) (ms1_1 t) (hs1_1 t) (ms1_2 t) (hs1_2 t)
    (ms1_3 t) (hs1_3 t) (ms1_4 t) (hs1_4 t) (fun h => h0 ((hcond1_0 t).mp h)) ((hcond1_1 t).mpr h1)
    (hBlock V c t) (yBlock V c t) (dBlock V c t) (bBlock V c t)
    (blockAfter (hArr V c) (yArr V c) (dArr V c) (bArr V c) (t.val / 4) 2)).trans ?_
  exact step_last (hArr V c) (yArr V c) (dArr V c) (bArr V c) (hBlock V c t) (yBlock V c t) (dBlock V c t)
    (bBlock V c t) (t.val / 4)
    (fun r e => hBlock_apply V c t (t.val / 4) 3 rfl h1 r e) (fun e f => yBlock_apply V c t 3 h1 e f)
    (fun r => dBlock_apply V c t (t.val / 4) rfl r) (fun f => bBlock_apply V c t f)

/-- After point `n = 4·i + j` the staging buffer holds what row block `i` has accumulated through column block `j`:
    by induction on the point. -/
theorem outsAt_eq (c : Dev nD) : ∀ (n : ℕ) (h : n < cfg1.N),
    outsAt1 V c n h = blockAfter (hArr V c) (yArr V c) (dArr V c) (bArr V c) (n / 4) (n % 4) := by
  intro n
  induction n with
  | zero => intro h; exact at_first V c ⟨0, h⟩ rfl
  | succ n ih =>
    intro h
    have hN : n + 1 < 64 := lt_of_lt_of_eq h (show cfg1.N = 64 from N_1)
    have hprev := ih (Nat.lt_of_succ_lt h)
    by_cases h0 : (n + 1) % 4 = 0
    · rw [h0]
      exact at_first V c ⟨n + 1, h⟩ h0
    · have hq : n / 4 = (n + 1) / 4 := by omega
      by_cases h1 : (n + 1) % 4 = 3
      · have hj : n % 4 = 2 := by omega
        rw [hq, hj] at hprev
        rw [h1]
        exact at_last V c ⟨n + 1, h⟩ h1 (fun _ => hprev)
      · obtain ⟨j, hj⟩ : ∃ j, (n + 1) % 4 = j + 1 := ⟨(n + 1) % 4 - 1, by omega⟩
        have hj' : n % 4 = j := by omega
        rw [hq, hj'] at hprev
        rw [hj]
        exact at_middle V c ⟨n + 1, h⟩ j hj (by omega) (fun _ => hprev)

end Invariant

/-! ## The write-backs, and the result array -/

section Final
open Cert.Hgnn

/-- What the point `t = 4·i + 3` writes back is block `i` of the specification's result. -/
theorem flushed_eq (c : Dev nD) (t : Fin cfg1.N) (hf : (cfg1.win 4).flush t = true) :
    (dat1 (F := Ideal) V c).flushed 4 t
      = ((cfg1.win 4).blk t).view.read (Elt Ideal) (outMat (hArr V c) (yArr V c) (dArr V c) (bArr V c)) := by
  have h3 : t.val % 4 = 3 := (flush1_4 t).mp hf
  obtain ⟨-, -, -, -, -, -, -, -, i0, i1⟩ := blockIndices t
  show (cfg1.win 4).cut (grid1.coords t) ((dat1 (F := Ideal) V c).after 4 t) = _
  rw [after1_4, outsAt_eq V c t.val t.isLt, h3]
  funext j
  show blockAfter (hArr V c) (yArr V c) (dArr V c) (bArr V c) (t.val / 4) 3 j
    = outMat (hArr V c) (yArr V c) (dArr V c) (bArr V c) (((cfg1.win 4).blk t).view.emb j)
  have e0 : ((((cfg1.win 4).blk t).view.emb j) 0).val = t.val / 4 * 1024 + (j 0).val := by
    show win1_4.index t (0 : Fin 2) * 1024 + 1 * (j 0).val = _
    rw [i0]; omega
  have e1 : ((((cfg1.win 4).blk t).view.emb j) 1).val = (j 1).val := by
    show win1_4.index t (1 : Fin 2) * 64 + 1 * (j 1).val = _
    rw [i1]; omega
  rw [blockAfter_finished]
  show _ = ent (dArr V c) ((((cfg1.win 4).blk t).view.emb j) 0).val 0
      * hyAcc (hArr V c) (yArr V c) ((((cfg1.win 4).blk t).view.emb j) 0).val 3 ((((cfg1.win 4).blk t).view.emb j) 1).val
    + ent (bArr V c) 0 ((((cfg1.win 4).blk t).view.emb j) 1).val
  rw [e0, e1]

/-- An index of the result array is in point `t`'s block iff each coordinate is in the block's range on its axis. -/
theorem mem_resultBlock (t : Fin cfg1.N) (i : S16384x64.Idx) :
    i ∈ ((cfg1.win 4).blk t).view.set
      ↔ ∀ a : Fin 2, win1_4.index t a * S1024x64.size a ≤ (i a).val
          ∧ (i a).val < win1_4.index t a * S1024x64.size a + S1024x64.size a := by
  show i ∈ ((View.whole main_v12).slice (win1_4.rect t)).set ↔ _
  rw [View.set_slice_whole, Rect.mem_set_unit]
  exact Iff.rfl

end Final

/-- After pass two the result array holds `d n · Σ_e H n e · y e f + b f` of the arrays the pass was entered with. -/
theorem out_final (c : Dev nD) :
    (dat1 (F := Ideal) V c).arrAt 4 cfg1.N
      = Cert.Hgnn.outMat (V c main_arg1) (V c main_v10) (V c main_v0_0) (V c main_v11) :=
  (dat1 (F := Ideal) V c).arrAt_eq_of_cover 4
    (Cert.Hgnn.outMat (V c main_arg1) (V c main_v10) (V c main_v0_0) (V c main_v11)) (flushed_eq V c) fun i => by
    have hi0 : (i 0).val < 16384 := (i 0).isLt
    have hi1 : (i 1).val < 64 := (i 1).isLt
    have hlt : 4 * ((i 0).val / 1024) + 3 < cfg1.N := by rw [show cfg1.N = 64 from N_1]; omega
    obtain ⟨-, -, -, -, -, -, -, -, i0, i1⟩ := blockIndices ⟨4 * ((i 0).val / 1024) + 3, hlt⟩
    refine ⟨⟨4 * ((i 0).val / 1024) + 3, hlt⟩, (flush1_4 _).mpr (by show (4 * ((i 0).val / 1024) + 3) % 4 = 3; omega), ?_⟩
    rw [mem_resultBlock]
    intro a
    match a with
    | ⟨0, _⟩ =>
      show win1_4.index ⟨4 * ((i 0).val / 1024) + 3, hlt⟩ (0 : Fin 2) * 1024 ≤ (i 0).val
        ∧ (i 0).val < win1_4.index ⟨4 * ((i 0).val / 1024) + 3, hlt⟩ (0 : Fin 2) * 1024 + 1024
      rw [i0]
      show (4 * ((i 0).val / 1024) + 3) / 4 * 1024 ≤ (i 0).val ∧ (i 0).val < (4 * ((i 0).val / 1024) + 3) / 4 * 1024 + 1024
      omega
    | ⟨1, _⟩ =>
      show win1_4.index ⟨4 * ((i 0).val / 1024) + 3, hlt⟩ (1 : Fin 2) * 64 ≤ (i 1).val
        ∧ (i 1).val < win1_4.index ⟨4 * ((i 0).val / 1024) + 3, hlt⟩ (1 : Fin 2) * 64 + 64
      rw [i1]
      omega

end Cert.KernelIdeal.PassTwo

end
-- ==== Proof.Whole.lean ====
/-
  The tiled program's result as one function of its arguments.

  Pass one leaves the vertex scalings, the two halves' column sums and the two halves' products (module PassOne). The
  host operations between the passes add the halves, invert the column sums, multiply by the hyperedge weights, scale the
  product and transpose it: the matrix `y` of the specification, read here entry by entry; they also lay the bias out as a
  row. Pass two turns `H`, `y`, the scalings and the bias row into the result (module PassTwo). Composed, the result
  buffer at the end of the run holds `Cert.Hgnn.tiled` of the five arguments as launched.
-/
import proofs.«410302_j87471303950814_3_alg».proof.Proof.PassOne
import proofs.«410302_j87471303950814_3_alg».proof.Proof.PassTwo
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Idealize.ShloMosaic.StableHlo

variable (m : (ℓ : Loc nD τ sig) → Buf (Elt Ideal) ℓ) (ρ : Dev nD → PrngReg)

/-! ## Host operations read at an index -/

/-- Adding the two halves of a stack of matrices, from the zero word. -/
theorem add_halves_mat (P : FVec Ideal S2x64x8192 .f32) (f : Fin 64) (e : Fin 8192) :
    Host.reduceAdd P (constant S_ .f32 0x00000000#32) reducesTo_S2x64x8192_S64x8192_d0 h_S_ (ix2 f e)
      = 0 + ∑ c : Fin 2, P (ix3 c f e) := by
  simp only [Host.reduceAdd, Ideal.hostReduceAdd_def]
  rw [Ideal.hostReduceAdd_single reducesTo_S2x64x8192_S64x8192_d0 (by decide)]
  refine congrArg₂ (· + ·) Ideal.ofBits_zero_f32 (Finset.sum_congr rfl fun k _ => ?_)
  exact congrArg P (funext fun a => Fin.ext (by match a with | ⟨0, _⟩ => rfl | ⟨1, _⟩ => rfl | ⟨2, _⟩ => rfl))

/-- Adding the two halves of a stack of rows, from the zero word. -/
theorem add_halves_row (P : FVec Ideal S2x1x8192 .f32) (u : Fin 1) (e : Fin 8192) :
    Host.reduceAdd P (constant S_ .f32 0x00000000#32) reducesTo_S2x1x8192_S1x8192_d0 h_S_ (ix2 u e)
      = 0 + ∑ c : Fin 2, P (ix3 c 0 e) := by
  simp only [Host.reduceAdd, Ideal.hostReduceAdd_def]
  rw [Ideal.hostReduceAdd_single reducesTo_S2x1x8192_S1x8192_d0 (by decide)]
  refine congrArg₂ (· + ·) Ideal.ofBits_zero_f32 (Finset.sum_congr rfl fun k _ => ?_)
  exact congrArg P (funext fun a => Fin.ext (by
    match a with
    | ⟨0, _⟩ => rfl
    | ⟨1, _⟩ => show (u : ℕ) = 0; omega
    | ⟨2, _⟩ => rfl))

/-- A row laid over 64 rows reads the row. -/
theorem row_over_rows (v : FVec Ideal S1x8192 .f32) (f : Fin 64) (e : Fin 8192) :
    broadcastInDim S64x8192 ![0, 1] bcast_S1x8192_S64x8192_0_1 v (ix2 f e) = v (ix2 (0 : Fin 1) e) :=
  broadcastInDim_apply _ _ v _ _ fun a => by
    match a with
    | ⟨0, _⟩ => rfl
    | ⟨1, _⟩ => rfl

/-! ## After pass one -/

theorem after_one_H (c : Dev nD) : W1 m ρ c (Proc.devRef .tc main_arg1) = m ((c : Thread nD τ).loc main_arg1) :=
  (W1_arr m ρ c 0).trans (((dat0 (V0 m ρ) c).arrAt_in 0 rfl _).trans (A_eq0 (V0 m ρ) c 0))

theorem after_one_w (c : Dev nD) : W1 m ρ c (Proc.devRef .tc main_arg2) = m ((c : Thread nD τ).loc main_arg2) :=
  W1_of_ne m ρ c main_arg2 (by decide)

theorem after_one_b (c : Dev nD) : W1 m ρ c (Proc.devRef .tc main_arg4) = m ((c : Thread nD τ).loc main_arg4) :=
  W1_of_ne m ρ c main_arg4 (by decide)

theorem after_one_d (c : Dev nD) :
    W1 m ρ c (Proc.devRef .tc main_v0_0) = Cert.Hgnn.dCol (m ((c : Thread nD τ).loc main_arg1)) :=
  (W1_arr m ρ c 3).trans (Cert.KernelIdeal.PassOne.dCol_final (V0 m ρ) c)

theorem after_one_cols (c : Dev nD) :
    W1 m ρ c (Proc.devRef .tc main_v0_1) = Cert.Hgnn.colHalves (m ((c : Thread nD τ).loc main_arg1)) :=
  (W1_arr m ρ c 4).trans (Cert.KernelIdeal.PassOne.colHalves_final (V0 m ρ) c)

theorem after_one_prods (c : Dev nD) :
    W1 m ρ c (Proc.devRef .tc main_v0_2)
      = Cert.Hgnn.prodHalves (m ((c : Thread nD τ).loc main_arg1)) (m ((c : Thread nD τ).loc main_arg0))
          (m ((c : Thread nD τ).loc main_arg3)) :=
  (W1_arr m ρ c 5).trans (Cert.KernelIdeal.PassOne.prodHalves_final (V0 m ρ) c)

/-! ## Entering pass two -/

theorem before_two_H (c : Dev nD) : V2 m ρ c main_arg1 = m ((c : Thread nD τ).loc main_arg1) := by
  show StableHlo.after hostOps1 (W1 m ρ c) (Proc.devRef .tc main_arg1) = _
  after_results
  exact after_one_H m ρ c

theorem before_two_d (c : Dev nD) : V2 m ρ c main_v0_0 = Cert.Hgnn.dCol (m ((c : Thread nD τ).loc main_arg1)) := by
  show StableHlo.after hostOps1 (W1 m ρ c) (Proc.devRef .tc main_v0_0) = _
  after_results
  exact after_one_d m ρ c

/-- The bias laid out as a row. -/
theorem before_two_b (c : Dev nD) :
    V2 m ρ c main_v11 = fun i => m ((c : Thread nD τ).loc main_arg4) (ix1 (i 1)) := by
  have e : (V2 m ρ c main_v11 : S1x64.Idx → EReal) = shapeCast S1x64 (W1 m ρ c (Proc.devRef .tc main_arg4)) shapeCasts_S64_S1x64 := by
    show StableHlo.after hostOps1 (W1 m ρ c) (Proc.devRef .tc main_v11) = _
    after_results
    rfl
  rw [e, after_one_b]
  funext i
  obtain ⟨u, f, rfl⟩ : ∃ (u : Fin 1) (f : Fin 64), i = ix2 u f := ⟨i 0, i 1, eq_ix2 i⟩
  exact shapeCast_a_1a_apply _ _ u f

/-- The matrix `y`: the halves added, the column sums inverted and weighted, the product scaled and transposed. -/
theorem before_two_y (c : Dev nD) :
    V2 m ρ c main_v10
      = Cert.Hgnn.yMat (Ideal.ofBits .f32 0x3F800000#32) (Cert.Hgnn.colHalves (m ((c : Thread nD τ).loc main_arg1)))
          (Cert.Hgnn.prodHalves (m ((c : Thread nD τ).loc main_arg1)) (m ((c : Thread nD τ).loc main_arg0))
            (m ((c : Thread nD τ).loc main_arg3)))
          (m ((c : Thread nD τ).loc main_arg2)) := by
  have e : (V2 m ρ c main_v10 : S8192x64.Idx → EReal)
      = transpose S8192x64 [1, 0]
          (mulf (F := Ideal)
            (Host.reduceAdd (F := Ideal) (W1 m ρ c (Proc.devRef .tc main_v0_2)) (constant (F := Ideal) S_ .f32 0x00000000#32)
              reducesTo_S2x64x8192_S64x8192_d0 h_S_)
            (broadcastInDim S64x8192 ![0, 1] bcast_S1x8192_S64x8192_0_1
              (shapeCast S1x8192
                (mulf (F := Ideal)
                  (Host.divf (F := Ideal) (broadcastInDim S8192 ![] bcast_S_S8192 (constant (F := Ideal) S_ .f32 0x3F800000#32))
                    (shapeCast S8192
                      (Host.reduceAdd (F := Ideal) (W1 m ρ c (Proc.devRef .tc main_v0_1)) (constant (F := Ideal) S_ .f32 0x00000000#32)
                        reducesTo_S2x1x8192_S1x8192_d0 h_S_)
                      shapeCasts_S1x8192_S8192))
                  (W1 m ρ c (Proc.devRef .tc main_arg2)))
                shapeCasts_S8192_S1x8192)))
          transposes_S64x8192_S8192x64_1_0 := by
    show StableHlo.after hostOps1 (W1 m ρ c) (Proc.devRef .tc main_v10) = _
    after_results
    rfl
  rw [e, after_one_prods, after_one_cols, after_one_w]
  funext i
  obtain ⟨e', f, rfl⟩ : ∃ (e' : Fin 8192) (f : Fin 64), i = ix2 e' f := ⟨i 0, i 1, eq_ix2 i⟩
  rw [transpose_ix2_apply, mulf_apply, add_halves_mat, row_over_rows, shapeCast_a_1a_apply, mulf_apply]
  show _ * (Ideal.div (Ideal.ofBits .f32 0x3F800000#32) (shapeCast S8192 _ shapeCasts_S1x8192_S8192 (ix1 e')) * _) = _
  rw [shapeCast_1a_a_apply, add_halves_row]
  rfl

/-! ## The whole run's result -/

/-- The result buffer at the end of the run holds the tiled value of the five arguments as launched (the program's
    literal for 1 left as the word it spells). -/
theorem result_eq (c : Dev nD) :
    W3 m ρ c (Proc.devRef .tc main_v12)
      = Cert.Hgnn.tiled (Ideal.ofBits .f32 0x3F800000#32) (m ((c : Thread nD τ).loc main_arg0))
          (m ((c : Thread nD τ).loc main_arg1)) (m ((c : Thread nD τ).loc main_arg2))
          (m ((c : Thread nD τ).loc main_arg3)) (m ((c : Thread nD τ).loc main_arg4)) := by
  refine (W3_arr m ρ c 4).trans ?_
  rw [Cert.KernelIdeal.PassTwo.out_final (V2 m ρ) c, before_two_H, before_two_y, before_two_d, before_two_b]
  rfl

end Cert.KernelIdeal.Whole

end
-- ==== Proof.RefValue.lean ====
/-
  The direct program's result, entry by entry.

  Its stages in order: the row scaling (row sums to the power -1/2), the column scaling (column sums to the power -1),
  the feature product `X Θ`, its rows scaled, gathered over the vertices of each hyperedge, scaled per hyperedge and
  weighted, scattered back over the hyperedges of each vertex, scaled per vertex, the bias added. Each stage is read at
  an index from the stage before, and the composition is the specification's `direct`.
-/
import proofs.«410302_j87471303950814_3_alg».proof.Proof.Gen.ReferenceIdeal.Run
import proofs.«410302_j87471303950814_3_alg».proof.Proof.Gen.ReferenceIdeal.Read
import proofs.«410302_j87471303950814_3_alg».proof.Proof.Law
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

/-! The direct program is a chain of entrywise operations, broadcasts, one transpose, two sums along an axis of the
    incidence matrix and three matrix products. Each stage is read here at an entry named by its coordinates, the
    stages below it already in closed form, so that the last stage is the specification's direct value term for term. -/

section stages

variable (x0 : (⟨S16384x64, .f32⟩ : BufTy).Contents (Elt Ideal)) (x1 : (⟨S16384x8192, .f32⟩ : BufTy).Contents (Elt Ideal))
  (x2 : (⟨S8192, .f32⟩ : BufTy).Contents (Elt Ideal)) (x3 : (⟨S64x64, .f32⟩ : BufTy).Contents (Elt Ideal))
  (x4 : (⟨S64, .f32⟩ : BufTy).Contents (Elt Ideal))

/-- The vertex scaling: the row sum of vertex n raised to the power the program spells (its word for -1/2). -/
theorem rowScale (n : Fin 16384) :
    val_main_v2 (F := Ideal) x1 (ix1 n)
      = Ideal.pow (Ideal.ofBits .f32 0x00000000#32 + ∑ e : Fin 8192, x1 (ix2 n e)) (Ideal.ofBits .f32 0xBF000000#32) := by
  rw [val_main_v2_apply, val_main_v0_apply, val_main_v1_apply, val_main_cst_apply, val_main_cst_0_apply,
    Ideal.hostPowf_def, Ideal.ofBits_def, Ideal.ofBits_def]
  refine congrArg (fun s => Ideal.pow (Ideal.ofBits .f32 0x00000000#32 + s) (Ideal.ofBits .f32 0xBF000000#32))
    (Finset.sum_congr rfl fun e _ => congrArg x1 ?_)
  exact funext fun a => Fin.ext (by match a with | ⟨0, _⟩ => rfl | ⟨1, _⟩ => rfl)

/-- The hyperedge scaling: the column sum of hyperedge e raised to the power the program spells (its word for -1). -/
theorem colScale (e : Fin 8192) :
    val_main_v5 (F := Ideal) x1 (ix1 e)
      = Ideal.pow (Ideal.ofBits .f32 0x00000000#32 + ∑ n : Fin 16384, x1 (ix2 n e)) (Ideal.ofBits .f32 0xBF800000#32) := by
  rw [val_main_v5_apply, val_main_v3_apply, val_main_v4_apply, val_main_cst_1_apply, val_main_cst_2_apply,
    Ideal.hostPowf_def, Ideal.ofBits_def, Ideal.ofBits_def]
  refine congrArg (fun s => Ideal.pow (Ideal.ofBits .f32 0x00000000#32 + s) (Ideal.ofBits .f32 0xBF800000#32))
    (Finset.sum_congr rfl fun n _ => congrArg x1 ?_)
  exact funext fun a => Fin.ext (by match a with | ⟨0, _⟩ => rfl | ⟨1, _⟩ => rfl)

/-- The feature transform: entry (n, f) of X Θ. -/
theorem featProd (n : Fin 16384) (f : Fin 64) :
    val_main_v6 (F := Ideal) x0 x3 (ix2 n f) = ∑ k : Fin 64, x0 (ix2 n k) * x3 (ix2 k f) := by
  rw [val_main_v6_apply]
  refine Finset.sum_congr rfl fun k _ => ?_
  have el : lidx_main_v6 (ix2 n f) k = ix2 n k :=
    funext fun a => Fin.ext (by match a with | ⟨0, _⟩ => rfl | ⟨1, _⟩ => rfl)
  have er : ridx_main_v6 (ix2 n f) k = ix2 k f :=
    funext fun a => Fin.ext (by match a with | ⟨0, _⟩ => rfl | ⟨1, _⟩ => rfl)
  rw [el, er]

/-- The scaled features: d n · (X Θ) n f. -/
theorem scaledFeat (n : Fin 16384) (f : Fin 64) :
    val_main_v11 (F := Ideal) x0 x1 x3 (ix2 n f)
      = Ideal.pow (Ideal.ofBits .f32 0x00000000#32 + ∑ e : Fin 8192, x1 (ix2 n e)) (Ideal.ofBits .f32 0xBF000000#32)
          * ∑ k : Fin 64, x0 (ix2 n k) * x3 (ix2 k f) := by
  have ei : idx_main_v9 (idx_main_v10 (ix2 n f)) = ix1 n :=
    funext fun a => Fin.ext (by match a with | ⟨0, _⟩ => rfl)
  rw [val_main_v11_apply, val_main_v10_apply, val_main_v9_apply, ei, rowScale, featProd, Ideal.mulf_def]

/-- Gathering onto the hyperedges: Σ_n H n e · (d n · (X Θ) n f), the transposed incidence matrix times the scaled features. -/
theorem edgeGather (e : Fin 8192) (f : Fin 64) :
    val_main_v12 (F := Ideal) x0 x1 x3 (ix2 e f)
      = ∑ n : Fin 16384, x1 (ix2 n e)
          * (Ideal.pow (Ideal.ofBits .f32 0x00000000#32 + ∑ e' : Fin 8192, x1 (ix2 n e')) (Ideal.ofBits .f32 0xBF000000#32)
              * ∑ k : Fin 64, x0 (ix2 n k) * x3 (ix2 k f)) := by
  rw [val_main_v12_apply]
  refine Finset.sum_congr rfl fun n _ => ?_
  have el : idx_main_v8 (lidx_main_v12 (ix2 e f) n) = ix2 n e :=
    funext fun a => Fin.ext (by match a with | ⟨0, _⟩ => rfl | ⟨1, _⟩ => rfl)
  have er : ridx_main_v12 (ix2 e f) n = ix2 n f :=
    funext fun a => Fin.ext (by match a with | ⟨0, _⟩ => rfl | ⟨1, _⟩ => rfl)
  rw [val_main_v8_apply, el, er, scaledFeat]

/-- The gathered value scaled by the hyperedge's inverse degree. -/
theorem edgeScaled (e : Fin 8192) (f : Fin 64) :
    val_main_v14 (F := Ideal) x0 x1 x3 (ix2 e f)
      = Ideal.pow (Ideal.ofBits .f32 0x00000000#32 + ∑ n : Fin 16384, x1 (ix2 n e)) (Ideal.ofBits .f32 0xBF800000#32)
          * ∑ n : Fin 16384, x1 (ix2 n e)
              * (Ideal.pow (Ideal.ofBits .f32 0x00000000#32 + ∑ e' : Fin 8192, x1 (ix2 n e')) (Ideal.ofBits .f32 0xBF000000#32)
                  * ∑ k : Fin 64, x0 (ix2 n k) * x3 (ix2 k f)) := by
  have ei : idx_main_v7 (idx_main_v13 (ix2 e f)) = ix1 e :=
    funext fun a => Fin.ext (by match a with | ⟨0, _⟩ => rfl)
  rw [val_main_v14_apply, val_main_v13_apply, val_main_v7_apply, ei, colScale, edgeGather, Ideal.mulf_def]

/-- … and by the hyperedge's weight. -/
theorem edgeWeighted (e : Fin 8192) (f : Fin 64) :
    val_main_v17 (F := Ideal) x0 x1 x2 x3 (ix2 e f)
      = x2 (ix1 e)
          * (Ideal.pow (Ideal.ofBits .f32 0x00000000#32 + ∑ n : Fin 16384, x1 (ix2 n e)) (Ideal.ofBits .f32 0xBF800000#32)
              * ∑ n : Fin 16384, x1 (ix2 n e)
                  * (Ideal.pow (Ideal.ofBits .f32 0x00000000#32 + ∑ e' : Fin 8192, x1 (ix2 n e')) (Ideal.ofBits .f32 0xBF000000#32)
                      * ∑ k : Fin 64, x0 (ix2 n k) * x3 (ix2 k f))) := by
  have ei : idx_main_v15 (idx_main_v16 (ix2 e f)) = ix1 e :=
    funext fun a => Fin.ext (by match a with | ⟨0, _⟩ => rfl)
  rw [val_main_v17_apply, val_main_v16_apply, val_main_v15_apply, ei, edgeScaled, Ideal.mulf_def]

/-- Scattering back onto the vertices: Σ_e H n e · (the weighted hyperedge value at (e, f)). -/
theorem vertexScatter (n : Fin 16384) (f : Fin 64) :
    val_main_v19 (F := Ideal) x0 x1 x2 x3 (ix2 n f)
      = ∑ e : Fin 8192, x1 (ix2 n e)
          * (x2 (ix1 e)
              * (Ideal.pow (Ideal.ofBits .f32 0x00000000#32 + ∑ m : Fin 16384, x1 (ix2 m e)) (Ideal.ofBits .f32 0xBF800000#32)
                  * ∑ m : Fin 16384, x1 (ix2 m e)
                      * (Ideal.pow (Ideal.ofBits .f32 0x00000000#32 + ∑ e' : Fin 8192, x1 (ix2 m e')) (Ideal.ofBits .f32 0xBF000000#32)
                          * ∑ k : Fin 64, x0 (ix2 m k) * x3 (ix2 k f)))) := by
  rw [val_main_v19_apply]
  refine Finset.sum_congr rfl fun e _ => ?_
  have el : lidx_main_v19 (ix2 n f) e = ix2 n e :=
    funext fun a => Fin.ext (by match a with | ⟨0, _⟩ => rfl | ⟨1, _⟩ => rfl)
  have er : ridx_main_v19 (ix2 n f) e = ix2 e f :=
    funext fun a => Fin.ext (by match a with | ⟨0, _⟩ => rfl | ⟨1, _⟩ => rfl)
  rw [el, er, edgeWeighted]

/-- The last stage at entry (n, f): the vertex scaling times the scattered value, plus the bias of feature f. -/
theorem result_at (n : Fin 16384) (f : Fin 64) :
    val_main_v24 (F := Ideal) x0 x1 x2 x3 x4 (ix2 n f)
      = Cert.Hgnn.direct (Ideal.ofBits .f32 0x00000000#32) (Ideal.ofBits .f32 0xBF000000#32) (Ideal.ofBits .f32 0xBF800000#32)
          x0 x1 x2 x3 x4 (ix2 n f) := by
  have ei : idx_main_v18 (idx_main_v20 (ix2 n f)) = ix1 n :=
    funext fun a => Fin.ext (by match a with | ⟨0, _⟩ => rfl)
  have eb : idx_main_v22 (idx_main_v23 (ix2 n f)) = ix1 f :=
    funext fun a => Fin.ext (by match a with | ⟨0, _⟩ => rfl)
  rw [val_main_v24_apply, val_main_v21_apply, val_main_v20_apply, val_main_v18_apply, ei, rowScale, vertexScatter,
    val_main_v23_apply, val_main_v22_apply, eb, Ideal.mulf_def, Ideal.addf_def]
  rfl

end stages

/-- The direct program's last stage, entry by entry, is the direct value of the specification, its three literals
    left as the words the program spells. -/
theorem result_eq (x0 : (⟨S16384x64, .f32⟩ : BufTy).Contents (Elt Ideal)) (x1 : (⟨S16384x8192, .f32⟩ : BufTy).Contents (Elt Ideal))
    (x2 : (⟨S8192, .f32⟩ : BufTy).Contents (Elt Ideal)) (x3 : (⟨S64x64, .f32⟩ : BufTy).Contents (Elt Ideal))
    (x4 : (⟨S64, .f32⟩ : BufTy).Contents (Elt Ideal)) :
    val_main_v24 (F := Ideal) x0 x1 x2 x3 x4
      = Cert.Hgnn.direct (Ideal.ofBits .f32 0x00000000#32) (Ideal.ofBits .f32 0xBF000000#32) (Ideal.ofBits .f32 0xBF800000#32)
          x0 x1 x2 x3 x4 := by
  funext i
  obtain ⟨n, f, rfl⟩ : ∃ (n : Fin 16384) (f : Fin 64), i = ix2 n f := ⟨i 0, i 1, eq_ix2 i⟩
  exact result_at x0 x1 x2 x3 x4 n f

end Cert.ReferenceIdeal.RefValue

end
-- ==== Proof.PreRead.lean ====
/-
  What the precondition says of the incidence matrix: every entry a real number, every row sum positive, every column
  sum different from zero.
-/
import proofs.«410302_j87471303950814_3_alg».proof.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.StableHlo.Predicate

noncomputable section

open scoped BigOperators
open Idealize.ShloMosaic Idealize.ShloMosaic.ValueIdx

namespace Cert.PreRead

open Cert.Pre_finite_inputs

variable [Cert.Pre_finite_inputs.Facts]

open Cert.Pre_finite_inputs.Facts

/-! The precondition is a conjunction of seven "all entries satisfy …" tests, each a reduction by "and" of an array of
    one-bit comparisons. Read at the extended reals: |x| < +∞ says that x is a real; a row sum above the zero word says
    it is positive; a column sum unequal to the zero word says it is not zero. -/

/-- The rank-zero shape has one index. -/
theorem scalarIdx_subsingleton : Subsingleton S_.Idx := ⟨fun a b => funext fun d => d.elim0⟩

/-- An extended real whose absolute value max x (-x) lies below the word for +∞ is a real: at -∞ and at +∞ the
    absolute value is +∞ itself. -/
theorem real_of_abs_lt_inf (x : EReal)
    (hx : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at hx
  induction x using EReal.rec with
  | bot => simp [Ideal.cmp] at hx
  | coe r => exact ⟨r, rfl⟩
  | top => simp [Ideal.cmp] at hx

/-- The host's sum of the incidence matrix along its second axis, from the zero word, at row n: 0 + Σ_e H n e. -/
theorem rowSum_read (x1 : FVec Ideal S16384x8192 .f32) (n : Fin 16384) :
    Host.reduceAdd (F := Ideal) x1 (constant S_ .f32 0x00000000#32) reducesTo_S16384x8192_S16384_d1 h_S_ (ix1 n)
      = (0 : EReal) + ∑ e : Fin 8192, x1 (ix2 n e) := by
  simp only [Host.reduceAdd, Ideal.hostReduceAdd_def]
  rw [Ideal.hostReduceAdd_single reducesTo_S16384x8192_S16384_d1 (by decide), constant_apply, Ideal.ofBits_zero_f32]
  refine congrArg ((0 : EReal) + ·) (Finset.sum_congr rfl fun k _ => congrArg x1 ?_)
  exact funext fun a => Fin.ext (by match a with | ⟨0, _⟩ => rfl | ⟨1, _⟩ => rfl)

/-- The host's sum along the first axis at column e: 0 + Σ_n H n e. -/
theorem colSum_read (x1 : FVec Ideal S16384x8192 .f32) (e : Fin 8192) :
    Host.reduceAdd (F := Ideal) x1 (constant S_ .f32 0x00000000#32) reducesTo_S16384x8192_S8192_d0 h_S_ (ix1 e)
      = (0 : EReal) + ∑ n : Fin 16384, x1 (ix2 n e) := by
  simp only [Host.reduceAdd, Ideal.hostReduceAdd_def]
  rw [Ideal.hostReduceAdd_single reducesTo_S16384x8192_S8192_d0 (by decide), constant_apply, Ideal.ofBits_zero_f32]
  refine congrArg ((0 : EReal) + ·) (Finset.sum_congr rfl fun k _ => congrArg x1 ?_)
  exact funext fun a => Fin.ext (by match a with | ⟨0, _⟩ => rfl | ⟨1, _⟩ => rfl)

/-- The comparison "above" against zero that came out true: the left side is positive. -/
theorem pos_of_ogt_zero (a : EReal) (ha : Ideal.cmp .ogt a 0 = 1#1) : 0 < a := by
  simpa only [Ideal.cmp, StableHlo.Predicate.ofBool_eq_one_iff, decide_eq_true_eq] using ha

/-- The comparison "unequal" against zero that came out true: the left side is not zero. -/
theorem ne_of_une_zero (a : EReal) (ha : Ideal.cmp .une a 0 = 1#1) : a ≠ 0 := by
  simpa only [Ideal.cmp, StableHlo.Predicate.ofBool_eq_one_iff, decide_eq_true_eq] using ha

/-- A comparison of a vector against the zero word spread over its shape, read at one entry: the comparison of that
    entry with zero. Stated over any vector, so that nothing of the vector is opened. -/
theorem cmpf_zero_splat {s : Shape} (p : CmpFPredicate) (a : FVec Ideal s .f32) (dims : Fin S_.rank → Fin s.rank)
    (hb : S_.BroadcastsInDim s dims) (j : s.Idx) :
    cmpf p a (broadcastInDim s dims hb (constant (F := Ideal) S_ .f32 0x00000000#32)) j = Ideal.cmp p (a j) 0 := by
  show Ideal.cmp p (a j) (Ideal.ofBits .f32 0x00000000#32) = _
  rw [Ideal.ofBits_zero_f32]

/-- What the precondition says of the incidence matrix `x1`: every entry a real, every row sum positive, every
    column sum nonzero (the sums as the host's reduction reads at this instance: `0 + Σ`). -/
theorem incidence (x0 : FVec Ideal S16384x64 .f32) (x1 : FVec Ideal S16384x8192 .f32) (x2 : FVec Ideal S8192 .f32)
    (x3 : FVec Ideal S64x64 .f32) (x4 : FVec Ideal S64 .f32)
    (h : Cert.Pre_finite_inputs.fn (F := Ideal) x0 x1 x2 x3 x4 = (fun _ => 1#1)) :
    (∀ i, ∃ r : ℝ, x1 i = (r : EReal))
    ∧ (∀ n : Fin 16384, 0 < (0 : EReal) + ∑ e : Fin 8192, x1 (ix2 n e))
    ∧ (∀ e : Fin 8192, (0 : EReal) + ∑ n : Fin 16384, x1 (ix2 n e) ≠ 0) := by
  haveI := scalarIdx_subsingleton
  -- the predicate at its one index, its operations in view
  have h0 := congrFun h ValueIdx.ix0
  dsimp only [fn, fn_part1, fn_part2] at h0
  -- a conjunction of seven bits that is 1 has every bit 1; of the seven, three speak of the incidence matrix
  simp only [andi, IntOp.andi_eq_one] at h0
  obtain ⟨⟨⟨⟨⟨⟨-, hfin⟩, -⟩, -⟩, -⟩, hrow⟩, hcol⟩ := h0
  refine ⟨fun i => ?_, fun n => ?_, fun e => ?_⟩
  · -- entry i passed the test |x| < +∞
    exact real_of_abs_lt_inf (x1 i) (Host.reduce_andi_all _ _ _ _ _ hfin i)
  · -- row n passed the test "row sum above zero"
    have hn := Host.reduce_andi_all _ _ _ _ _ hrow (ix1 n)
    rw [cmpf_zero_splat, rowSum_read] at hn
    exact pos_of_ogt_zero _ hn
  · -- column e passed the test "column sum unequal to zero"
    have he := Host.reduce_andi_all _ _ _ _ _ hcol (ix1 e)
    rw [cmpf_zero_splat, colSum_read] at he
    exact ne_of_une_zero _ he

end Cert.PreRead

end
-- ==== Proof.lean ====
/-
  Hypergraph convolution, tiled against direct: the certificate's five claims.

  Both programs compute out = D_v^{-1/2} · H · diag(w) · D_e^{-1} · Hᵀ · D_v^{-1/2} · (X Θ) + b on the extended reals.
  The tiled program's result buffer ends at `Cert.Hgnn.tiled` of its arguments (two passes over `H` and the host
  operations between them: modules PassOne, PassTwo, Whole, over the run with its result named); the direct program's at
  `Cert.Hgnn.direct` (its generated run, read one operation at a time: module RefValue). The precondition makes every
  entry of `H` a real, every row sum positive and every column sum nonzero (module PreRead), and there the two values are
  one (module Law): the reciprocal square root is the power -1/2 on a positive row sum, the quotient 1/· is the power -1
  on a nonzero real column sum, and sums regroup and products commute on the extended reals.
  The three frames are the generated ones (the direct program's is its run with the result dropped); the idealization
  rewrote nothing, so `preserves` is trivial.
-/
import proofs.«410302_j87471303950814_3_alg».proof.Defs
import proofs.«410302_j87471303950814_3_alg».proof.Proof.Gen.Kernel
import proofs.«410302_j87471303950814_3_alg».proof.Proof.Gen.Kernel.Skeleton
import proofs.«410302_j87471303950814_3_alg».proof.Proof.Gen.Kernel.Launch
import proofs.«410302_j87471303950814_3_alg».proof.Proof.Gen.Kernel.Points
import proofs.«410302_j87471303950814_3_alg».proof.Proof.Gen.Kernel.Frame
import proofs.«410302_j87471303950814_3_alg».proof.Proof.Gen.KernelIdeal
import proofs.«410302_j87471303950814_3_alg».proof.Proof.Gen.KernelIdeal.Skeleton
import proofs.«410302_j87471303950814_3_alg».proof.Proof.Gen.KernelIdeal.Launch
import proofs.«410302_j87471303950814_3_alg».proof.Proof.Gen.KernelIdeal.Points
import proofs.«410302_j87471303950814_3_alg».proof.Proof.Gen.KernelIdeal.Frame
import proofs.«410302_j87471303950814_3_alg».proof.Proof.Gen.ReferenceIdeal
import proofs.«410302_j87471303950814_3_alg».proof.Proof.Gen.ReferenceIdeal.Run
import proofs.«410302_j87471303950814_3_alg».proof.Proof.Gen.ReferenceIdeal.Read
import proofs.«410302_j87471303950814_3_alg».proof.Proof.Gen.Pre_finite_inputs
import proofs.«410302_j87471303950814_3_alg».proof.Proof.Consts
import proofs.«410302_j87471303950814_3_alg».proof.Proof.Law
import proofs.«410302_j87471303950814_3_alg».proof.Proof.ValueRun
import proofs.«410302_j87471303950814_3_alg».proof.Proof.Whole
import proofs.«410302_j87471303950814_3_alg».proof.Proof.RefValue
import proofs.«410302_j87471303950814_3_alg».proof.Proof.PreRead
import Idealize.ShloMosaic.Adequacy
import Idealize.ShloMosaic.Init

noncomputable section

namespace Cert.Proof

open Idealize.ShloMosaic Idealize.SL.Sem

theorem frame_tiled_words : Cert.frame_Kernel := fun m ρ _ => Cert.Kernel.Gen.frame m ρ

theorem frame_tiled : Cert.frame_KernelIdeal := fun m ρ _ => Cert.KernelIdeal.Gen.frame m ρ

theorem frame_direct : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments, under the precondition, both runs end and the two result buffers hold one
    array: the tiled value, which the law identifies with the direct one. -/
theorem algebraic : Cert.algebraic_KernelIdeal_ReferenceIdeal := by
  intro m ρ m' ρ' hpre hagree
  refine ⟨fun c => Cert.Hgnn.tiled 1
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩)
      (Cert.KernelIdeal.ValueRun.run (F := Ideal) m ρ)
    rw [Cert.KernelIdeal.Whole.result_eq, Cert.Hgnn.Consts.ofBits_one]
  · refine (θ_run Cert.ReferenceIdeal.defs _ _).mono (fun _ h c => ⟨(h c).1.trans ?_, (h c).2⟩)
      (Cert.ReferenceIdeal.Value.run (F := Ideal) m' ρ')
    obtain ⟨hH, hrow, hcol⟩ := Cert.PreRead.incidence _ _ _ _ _ (hpre c)
    rw [Cert.ReferenceIdeal.Read.val_main_v24_eq, Cert.ReferenceIdeal.RefValue.result_eq,
      (hagree c).1, (hagree c).2.1, (hagree c).2.2.1, (hagree c).2.2.2.1, (hagree c).2.2.2.2,
      Ideal.ofBits_zero_f32, Cert.Hgnn.Consts.ofBits_neg_half, Cert.Hgnn.Consts.ofBits_neg_one]
    exact (Cert.Hgnn.tiled_eq_direct _ _ _ _ _ hH hrow hcol).symm

theorem claim : Cert.Claim :=
  ⟨Cert.Kernel.Gen.facts, Cert.KernelIdeal.Gen.facts, Cert.ReferenceIdeal.Gen.facts, Cert.Pre_finite_inputs.Gen.facts,
    frame_tiled_words, frame_tiled, frame_direct, preserves, algebraic⟩

end Cert.Proof

end
